-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v53)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v53) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000x128 : Shape := ⟨2, ![500000, 128]⟩
abbrev S500000 : Shape := ⟨1, ![500000]⟩
abbrev S8x500000x2 : Shape := ⟨3, ![8, 500000, 2]⟩
abbrev S128x144 : Shape := ⟨2, ![128, 144]⟩
abbrev S128 : Shape := ⟨1, ![128]⟩
abbrev S128x128 : Shape := ⟨2, ![128, 128]⟩
abbrev S_ : Shape := ⟨0, ![]⟩

class Facts : Prop where
  bcast_S_S500000x128 : S_.BroadcastsInDim S500000x128 (![] : Fin 0 → Fin S500000x128.rank)
  reducesTo_S500000x128_S_d0_1 : S500000x128.ReducesTo [0, 1] S_
  h_S_ : 0 < S_.numel
  bcast_S_S8x500000x2 : S_.BroadcastsInDim S8x500000x2 (![] : Fin 0 → Fin S8x500000x2.rank)
  reducesTo_S8x500000x2_S_d0_1_2 : S8x500000x2.ReducesTo [0, 1, 2] S_
  bcast_S_S128x144 : S_.BroadcastsInDim S128x144 (![] : Fin 0 → Fin S128x144.rank)
  reducesTo_S128x144_S_d0_1 : S128x144.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part2 {F : FTy → Type} [FloatOps F] (main_arg8 : FVec F S128x128 .f32) (main_arg9 : FVec F S128 .f32) (main_arg10 : FVec F S128 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  main_v48

def fn_part1 {F : FTy → Type} [FloatOps F] (main_arg5 : FVec F S128x144 .f32) (main_arg6 : FVec F S128x128 .f32) (main_arg7 : FVec F S128 .f32) (main_arg8 : FVec F S128x128 .f32) (main_arg9 : FVec F S128 .f32) (main_arg10 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x144 .f32 := Host.absf main_arg5
  let main_cst_6 : FVec F S_ .f32 := constant S_ .f32 0x7F800000#32
  let main_v20 : FVec F S128x144 .f32 := broadcastInDim S128x144 ![] bcast_S_S128x144 main_cst_6
  let main_v21 : IVec S128x144 1 := cmpf .olt main_v19 main_v20
  let main_c_7 : IVec S_ 1 := constantI S_ 1 1#1
  let main_v22 : IVec S_ 1 := (fun x v => Host.reduce IntOp.andi x v reducesTo_S128x144_S_d0_1 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_v33

def fn {F : FTy → Type} [FloatOps F] (main_arg0 : FVec F S500000x128 .f32) (main_arg1 : IVec S500000 32) (main_arg2 : FVec F S8x500000x2 .f32) (main_arg3 : FVec F S128x144 .f32) (main_arg4 : FVec F S128 .f32) (main_arg5 : FVec F S128x144 .f32) (main_arg6 : FVec F S128x128 .f32) (main_arg7 : FVec F S128 .f32) (main_arg8 : FVec F S128x128 .f32) (main_arg9 : FVec F S128 .f32) (main_arg10 : FVec F S128 .f32) : IVec S_ 1 :=
  let main_v0 : FVec F S500000x128 .f32 := Host.absf main_arg0
  let main_cst : FVec F S_ .f32 := constant S_ .f32 0x7F800000#32
  let main_v1 : FVec F S500000x128 .f32 := broadcastInDim S500000x128 ![] bcast_S_S500000x128 main_cst
  let main_v2 : IVec S500000x128 1 := cmpf .olt main_v0 main_v1
  let main_c : IVec S_ 1 := constantI S_ 1 1#1
  let main_v3 : IVec S_ 1 := (fun x v => Host.reduce IntOp.andi x v reducesTo_S500000x128_S_d0_1 h_S_) main_v2 main_c
  let main_v4 : FVec F S8x500000x2 .f32 := Host.absf main_arg2
  let main_cst_0 : FVec F S_ .f32 := constant S_ .f32 0x7F800000#32
  let main_v5 : FVec F S8x500000x2 .f32 := broadcastInDim S8x500000x2 ![] bcast_S_S8x500000x2 main_cst_0
  let main_v6 : IVec S8x500000x2 1 := cmpf .olt main_v4 main_v5
  let main_c_1 : IVec S_ 1 := constantI S_ 1 1#1
  let main_v7 : IVec S_ 1 := (fun x v => Host.reduce IntOp.andi x v reducesTo_S8x500000x2_S_d0_1_2 h_S_) main_v6 main_c_1
  let main_v8 : IVec S_ 1 := andi main_v3 main_v7
  let main_v9 : FVec F S128x144 .f32 := Host.absf main_arg3
  let main_cst_2 : FVec F S_ .f32 := constant S_ .f32 0x7F800000#32
  let main_v10 : FVec F S128x144 .f32 := broadcastInDim S128x144 ![] bcast_S_S128x144 main_cst_2
  let main_v11 : IVec S128x144 1 := cmpf .olt main_v9 main_v10
  let main_c_3 : IVec S_ 1 := constantI S_ 1 1#1
  let main_v12 : IVec S_ 1 := (fun x v => Host.reduce IntOp.andi x v reducesTo_S128x144_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_v13 main_v16
-- ==== Kernel.lean ====
abbrev S500000x128 : Shape := ⟨2, ![500000, 128]⟩
abbrev S500000 : Shape := ⟨1, ![500000]⟩
abbrev S8x500000x2 : Shape := ⟨3, ![8, 500000, 2]⟩
abbrev S128x144 : Shape := ⟨2, ![128, 144]⟩
abbrev S128 : Shape := ⟨1, ![128]⟩
abbrev S128x128 : Shape := ⟨2, ![128, 128]⟩
abbrev S500000x8x2 : Shape := ⟨3, ![500000, 8, 2]⟩
abbrev S500000x16 : Shape := ⟨2, ![500000, 16]⟩
abbrev S500000x144 : Shape := ⟨2, ![500000, 144]⟩
abbrev S_ : Shape := ⟨0, ![]⟩
abbrev S2048x144 : Shape := ⟨2, ![2048, 144]⟩
abbrev S500000x1 : Shape := ⟨2, ![500000, 1]⟩
abbrev S2048x1 : Shape := ⟨2, ![2048, 1]⟩
abbrev S144x128 : Shape := ⟨2, ![144, 128]⟩
abbrev S2048x128 : Shape := ⟨2, ![2048, 128]⟩
abbrev S5000x144 : Shape := ⟨2, ![5000, 144]⟩
abbrev S5000x128 : Shape := ⟨2, ![5000, 128]⟩
abbrev S1x128 : Shape := ⟨2, ![1, 128]⟩

abbrev nBuf : Space → Nat
  | .hbm => 81
  | .vmem => 28
  | .smem => 0
  | _ => 0

abbrev bufTy : (tb : Table) → Fin (tcTables nBuf tb) → BufTy
  | .hbm, ⟨0, _⟩ => ⟨S500000x128, .f32⟩
  | .hbm, ⟨1, _⟩ => ⟨S500000, .i32⟩
  | .hbm, ⟨2, _⟩ => ⟨S8x500000x2, .f32⟩
  | .hbm, ⟨3, _⟩ => ⟨S128x144, .f32⟩
  | .hbm, ⟨4, _⟩ => ⟨S128, .f32⟩
  | .hbm, ⟨5, _⟩ => ⟨S128x144, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128, .f32⟩
  | .hbm, ⟨11, _⟩ => ⟨S500000x8x2, .f32⟩
  | .hbm, ⟨12, _⟩ => ⟨S500000x16, .f32⟩
  | .hbm, ⟨13, _⟩ => ⟨S500000x144, .f32⟩
  | .hbm, ⟨14, _⟩ => ⟨S_, .f32⟩
  | .hbm, ⟨15, _⟩ => ⟨S2048x144, .f32⟩
  | .hbm, ⟨16, _⟩ => ⟨S500000x1, .i32⟩
  | .hbm, ⟨17, _⟩ => ⟨S2048x144, .f32⟩
  | .hbm, ⟨18, _⟩ => ⟨S_, .f32⟩
  | .hbm, ⟨19, _⟩ => ⟨S500000x1, .f32⟩
  | .hbm, ⟨20, _⟩ => ⟨S_, .f32⟩
  | .hbm, ⟨21, _⟩ => ⟨S2048x1, .f32⟩
  | .hbm, ⟨22, _⟩ => ⟨S500000x1, .i32⟩
  | .hbm, ⟨23, _⟩ => ⟨S2048x1, .f32⟩
  | .hbm, ⟨24, _⟩ => ⟨S_, .f32⟩
  | .hbm, ⟨25, _⟩ => ⟨S2048x1, .f32⟩
  | .hbm, ⟨26, _⟩ => ⟨S2048x1, .f32⟩
  | .hbm, ⟨27, _⟩ => ⟨S2048x144, .f32⟩
  | .hbm, ⟨28, _⟩ => ⟨S2048x144, .f32⟩
  | .hbm, ⟨29, _⟩ => ⟨S144x128, .f32⟩
  | .hbm, ⟨30, _⟩ => ⟨S2048x128, .f32⟩
  | .hbm, ⟨31, _⟩ => ⟨S_, .i32⟩
  | .hbm, ⟨32, _⟩ => ⟨S500000, .i32⟩
  | .hbm, ⟨33, _⟩ => ⟨S500000, .i1⟩
  | .hbm, ⟨34, _⟩ => ⟨S_, .i32⟩
  | .hbm, ⟨35, _⟩ => ⟨S500000, .i32⟩
  | .hbm, ⟨36, _⟩ => ⟨S500000, .i32⟩
  | .hbm, ⟨37, _⟩ => ⟨S500000, .i32⟩
  | .hbm, ⟨38, _⟩ => ⟨S500000x1, .i32⟩
  | .hbm, ⟨39, _⟩ => ⟨S500000x128, .f32⟩
  | .hbm, ⟨40, _⟩ => ⟨S144x128, .f32⟩
  | .hbm, ⟨41, _⟩ => ⟨S500000x128, .f32⟩
  | .hbm, ⟨42, _⟩ => ⟨S_, .f32⟩
  | .hbm, ⟨43, _⟩ => ⟨S2048x128, .f32⟩
  | .hbm, ⟨44, _⟩ => ⟨S500000x1, .i32⟩
  | .hbm, ⟨45, _⟩ => ⟨S2048x128, .f32⟩
  | .hbm, ⟨46, _⟩ => ⟨S_, .f32⟩
  | .hbm, ⟨47, _⟩ => ⟨S500000x1, .f32⟩
  | .hbm, ⟨48, _⟩ => ⟨S_, .f32⟩
  | .hbm, ⟨49, _⟩ => ⟨S2048x1, .f32⟩
  | .hbm, ⟨50, _⟩ => ⟨S500000x1, .i32⟩
  | .hbm, ⟨51, _⟩ => ⟨S2048x1, .f32⟩
  | .hbm, ⟨52, _⟩ => ⟨S_, .f32⟩
  | .hbm, ⟨53, _⟩ => ⟨S2048x1, .f32⟩
  | .hbm, ⟨54, _⟩ => ⟨S2048x1, .f32⟩
  | .hbm, ⟨55, _⟩ => ⟨S2048x128, .f32⟩
  | .hbm, ⟨56, _⟩ => ⟨S2048x128, .f32⟩
  | .hbm, ⟨57, _⟩ => ⟨S128x128, .f32⟩
  | .hbm, ⟨58, _⟩ => ⟨S2048x128, .f32⟩
  | .hbm, ⟨59, _⟩ => ⟨S_, .i32⟩
  | .hbm, ⟨60, _⟩ => ⟨S500000, .i32⟩
  | .hbm, ⟨61, _⟩ => ⟨S500000, .i1⟩
  | .hbm, ⟨62, _⟩ => ⟨S_, .i32⟩
  | .hbm, ⟨63, _⟩ => ⟨S500000, .i32⟩
  | .hbm, ⟨64, _⟩ => ⟨S500000, .i32⟩
  | .hbm, ⟨65, _⟩ => ⟨S500000, .i32⟩
  | .hbm, ⟨66, _⟩ => ⟨S500000x1, .i32⟩
  | .hbm, ⟨67, _⟩ => ⟨S500000x128, .f32⟩
  | .hbm, ⟨68, _⟩ => ⟨S128x128, .f32⟩
  | .hbm, ⟨69, _⟩ => ⟨S500000x128, .f32⟩
  | .hbm, ⟨70, _⟩ => ⟨S128, .f32⟩
  | .hbm, ⟨71, _⟩ => ⟨S128, .f32⟩
  | .hbm, ⟨72, _⟩ => ⟨S_, .f32⟩
  | .hbm, ⟨73, _⟩ => ⟨S128, .f32⟩
  | .hbm, ⟨74, _⟩ => ⟨S128, .f32⟩
  | .hbm, ⟨75, _⟩ => ⟨S_, .f32⟩
  | .hbm, ⟨76, _⟩ => ⟨S128, .f32⟩
  | .hbm, ⟨77, _⟩ => ⟨S128, .f32⟩
  | .hbm, ⟨78, _⟩ => ⟨S128, .f32⟩
  | .hbm, ⟨79, _⟩ => ⟨S128, .f32⟩
  | .hbm, ⟨80, _⟩ => ⟨S500000x128, .f32⟩
  | .local _ .vmem, ⟨0, _⟩ => ⟨S5000x144, .f32⟩
  | .local _ .vmem, ⟨1, _⟩ => ⟨S5000x144, .f32⟩
  | .local _ .vmem, ⟨2, _⟩ => ⟨S5000x128, .f32⟩
  | .local _ .vmem, ⟨3, _⟩ => ⟨S5000x128, .f32⟩
  | .local _ .vmem, ⟨4, _⟩ => ⟨S144x128, .f32⟩
  | .local _ .vmem, ⟨5, _⟩ => ⟨S128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x128, .f32⟩
  | .local _ .vmem, ⟨13, _⟩ => ⟨S128, .f32⟩
  | .local _ .vmem, ⟨14, _⟩ => ⟨S5000x128, .f32⟩
  | .local _ .vmem, ⟨15, _⟩ => ⟨S5000x128, .f32⟩
  | .local _ .vmem, ⟨16, _⟩ => ⟨S128, .f32⟩
  | .local _ .vmem, ⟨17, _⟩ => ⟨S128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128, .f32⟩
  | .local _ .vmem, ⟨23, _⟩ => ⟨S128, .f32⟩
  | .local _ .vmem, ⟨24, _⟩ => ⟨S128, .f32⟩
  | .local _ .vmem, ⟨25, _⟩ => ⟨S128, .f32⟩
  | .local _ .vmem, ⟨26, _⟩ => ⟨S5000x128, .f32⟩
  | .local _ .vmem, ⟨27, _⟩ => ⟨S5000x128, .f32⟩
  | _, _ => ⟨S500000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_cst : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_cst_0 : Ref sig .tc := ⟨.hbm, 18, rfl⟩
abbrev main_v6 : Ref sig .tc := ⟨.hbm, 19, rfl⟩
abbrev main_cst_1 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst_2 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_c : Ref sig .tc := ⟨.hbm, 31, rfl⟩
abbrev main_v16 : Ref sig .tc := ⟨.hbm, 32, rfl⟩
abbrev main_v17 : Ref sig .tc := ⟨.hbm, 33, rfl⟩
abbrev main_c_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_4 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_5 : Ref sig .tc := ⟨.hbm, 46, rfl⟩
abbrev main_v28 : Ref sig .tc := ⟨.hbm, 47, rfl⟩
abbrev main_cst_6 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_7 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_c_8 : Ref sig .tc := ⟨.hbm, 59, rfl⟩
abbrev main_v38 : Ref sig .tc := ⟨.hbm, 60, rfl⟩
abbrev main_v39 : Ref sig .tc := ⟨.hbm, 61, rfl⟩
abbrev main_c_9 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46_0 : Ref sig .tc := ⟨.hbm, 69, rfl⟩
abbrev main_v46_1 : Ref sig .tc := ⟨.hbm, 70, rfl⟩
abbrev main_v46_2 : Ref sig .tc := ⟨.hbm, 71, rfl⟩
abbrev main_cst_10 : Ref sig .tc := ⟨.hbm, 72, rfl⟩
abbrev main_v47 : Ref sig .tc := ⟨.hbm, 73, rfl⟩
abbrev main_v48 : Ref sig .tc := ⟨.hbm, 74, rfl⟩
abbrev main_cst_11 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc1_stg5_0 : Ref sig .tc := ⟨.vmem, 16, rfl⟩
abbrev cc1_stg6_0 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg6_0 : Ref sig .tc := ⟨.vmem, 26, rfl⟩
abbrev cc2_stg6_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem4_1 : DmaSem sig := 15
abbrev cc1_sem5_0 : DmaSem sig := 16
abbrev cc1_sem6_0 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem6_0 : DmaSem sig := 26
abbrev cc2_sem6_1 : DmaSem sig := 27

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x144 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S144x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev grid2 : Pipeline.Grid := ⟨1, ![100], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  transposes_S8x500000x2_S500000x8x2_1_0_2 : S8x500000x2.Transposes [1, 0, 2] S500000x8x2
  shapeCasts_S500000x8x2_S500000x16 : S500000x8x2.ShapeCasts S500000x16
  concatenates_S500000x128_S500000x16_S500000x144_d1 : Shape.Concatenates [S500000x128, S500000x16] S500000x144 1
  bcast_S_S2048x144 : S_.BroadcastsInDim S2048x144 (![] : Fin 0 → Fin S2048x144.rank)
  bcast_S500000_S500000x1_0 : S500000.BroadcastsInDim S500000x1 (![0] : Fin 1 → Fin S500000x1.rank)
  bcast_S_S500000x1 : S_.BroadcastsInDim S500000x1 (![] : Fin 0 → Fin S500000x1.rank)
  bcast_S_S2048x1 : S_.BroadcastsInDim S2048x1 (![] : Fin 0 → Fin S2048x1.rank)
  bcast_S2048x1_S2048x144_0_1 : S2048x1.BroadcastsInDim S2048x144 (![0, 1] : Fin 2 → Fin S2048x144.rank)
  transposes_S128x144_S144x128_1_0 : S128x144.Transposes [1, 0] S144x128
  bcast_S_S500000 : S_.BroadcastsInDim S500000 (![] : Fin 0 → Fin S500000.rank)
  inb_S5000x144_S5000x144_0_0 : ∀ a, (![0, 0] : Fin 2 → Nat) a + S5000x144.size a ≤ S5000x144.size a
  h_S5000x144 : 0 < S5000x144.numel
  shapeCasts_S5000x144_S5000x144 : S5000x144.ShapeCasts S5000x144
  bitsLt_bf16_f32 : FTy.bits .bf16 < FTy.bits .f32
  inb_S144x128_S144x128_0_0 : ∀ a, (![0, 0] : Fin 2 → Nat) a + S144x128.size a ≤ S144x128.size a
  h_S144x128 : 0 < S144x128.numel
  shapeCasts_S144x128_S144x128 : S144x128.ShapeCasts S144x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bcast_S_S2048x128 : S_.BroadcastsInDim S2048x128 (![] : Fin 0 → Fin S2048x128.rank)
  bcast_S2048x1_S2048x128_0_1 : S2048x1.BroadcastsInDim S2048x128 (![0, 1] : Fin 2 → Fin S2048x128.rank)
  transposes_S128x128_S128x128_1_0 : S128x128.Transposes [1, 0] S128x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  shapeCasts_S128_S128 : S128.ShapeCasts S128
  reduces_S5000x128_S128 : S5000x128.Reduces [0] S128
  bcast_S_S128 : S_.BroadcastsInDim S128 (![] : Fin 0 → Fin S128.rank)
  scatter_S2048x144_S500000x1_S500000x144_1_0_0_1_wf : ScatterDims.WF S2048x144 S500000x1 S500000x144 [1] [0] [0] 1
  scatter_S2048x1_S500000x1_S500000x1_1_0_0_1_wf : ScatterDims.WF S2048x1 S500000x1 S500000x1 [1] [0] [0] 1
  dot_S2048x144_S144x128_S2048x128_1_0_0_1_n_n_wf : DotDims.WF S2048x144 S144x128 S2048x128 [1] [0] [0] [1] [] []
  gather_S2048x128_S500000x1_S500000x128_1_0_n_n_0_1_1128_wf : GatherDims.WF S2048x128 S500000x1 S500000x128 [1] [0] [] [0] [] 1 ![1, 128]
  dot_S5000x144_S144x128_S5000x128_1_0_0_1_n_n_wf : DotDims.WF S5000x144 S144x128 S5000x128 [1] [0] [0] [1] [] []
  scatter_S2048x128_S500000x1_S500000x128_1_0_0_1_wf : ScatterDims.WF S2048x128 S500000x1 S500000x128 [1] [0] [0] 1
  dot_S2048x128_S128x128_S2048x128_1_0_0_1_n_n_wf : DotDims.WF S2048x128 S128x128 S2048x128 [1] [0] [0] [1] [] []
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x144.size a ≤ S500000x144.size a
  hwx0_0 : ∀ i : grid0.Coords, EltTy.bits .f32 = 32 ∨ (Rect.block (s := S500000x144) S5000x144.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S500000x128.size a
  hwx0_1 : ∀ i : grid0.Coords, EltTy.bits .f32 = 32 ∨ (Rect.block (s := S500000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S144x128.size a ≤ S144x128.size a
  hwx0_2 : ∀ i : grid0.Coords, EltTy.bits .f32 = 32 ∨ (Rect.block (s := S144x128) S144x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S500000x128.size a
  hwx0_4 : ∀ i : grid0.Coords, EltTy.bits .f32 = 32 ∨ (Rect.block (s := S500000x128) S5000x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S500000x128.size a
  hwx1_0 : ∀ i : grid1.Coords, EltTy.bits .f32 = 32 ∨ (Rect.block (s := S500000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S500000x128.size a
  hwx1_1 : ∀ i : grid1.Coords, EltTy.bits .f32 = 32 ∨ (Rect.block (s := S500000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S500000x128.size a
  hwx1_4 : ∀ i : grid1.Coords, EltTy.bits .f32 = 32 ∨ (Rect.block (s := S500000x128) S5000x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128.size a ≤ S128.size a
  hwx1_5 : ∀ i : grid1.Coords, EltTy.bits .f32 = 32 ∨ (Rect.block (s := S128) S128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128.size a ≤ S128.size a
  hwx1_6 : ∀ i : grid1.Coords, EltTy.bits .f32 = 32 ∨ (Rect.block (s := S128) S128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S500000x128.size a
  hwx2_0 : ∀ i : grid2.Coords, EltTy.bits .f32 = 32 ∨ (Rect.block (s := S500000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S500000x128.size a
  hwx2_1 : ∀ i : grid2.Coords, EltTy.bits .f32 = 32 ∨ (Rect.block (s := S500000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128.size a ≤ S128.size a
  hwx2_2 : ∀ i : grid2.Coords, EltTy.bits .f32 = 32 ∨ (Rect.block (s := S128) S128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128.size a ≤ S128.size a
  hwx2_3 : ∀ i : grid2.Coords, EltTy.bits .f32 = 32 ∨ (Rect.block (s := S128) S128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128.size a ≤ S128.size a
  hwx2_4 : ∀ i : grid2.Coords, EltTy.bits .f32 = 32 ∨ (Rect.block (s := S128) S128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128.size a ≤ S128.size a
  hwx2_5 : ∀ i : grid2.Coords, EltTy.bits .f32 = 32 ∨ (Rect.block (s := S128) S128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x128.size a ≤ S500000x128.size a
  hwx2_6 : ∀ i : grid2.Coords, EltTy.bits .f32 = 32 ∨ (Rect.block (s := S500000x128) S5000x128.size (cc2_transform_6 i) (hinb2_6 i)).WholeWords (EltTy.packing .f32)

variable [Facts₀]

def scatter_S2048x144_S500000x1_S500000x144_1_0_0_1 : ScatterDims S2048x144 S500000x1 S500000x144 where
  updateWindowDims := [1]
  insertedWindowDims := [0]
  scatterDimsToOperandDims := [0]
  indexVectorDim := 1
  wf := scatter_S2048x144_S500000x1_S500000x144_1_0_0_1_wf
def scatter_S2048x1_S500000x1_S500000x1_1_0_0_1 : ScatterDims S2048x1 S500000x1 S500000x1 where
  updateWindowDims := [1]
  insertedWindowDims := [0]
  scatterDimsToOperandDims := [0]
  indexVectorDim := 1
  wf := scatter_S2048x1_S500000x1_S500000x1_1_0_0_1_wf
def dot_S2048x144_S144x128_S2048x128_1_0_0_1_n_n : DotDims S2048x144 S144x128 S2048x128 where
  lhsContracting := [1]
  rhsContracting := [0]
  lhsNonContracting := [0]
  rhsNonContracting := [1]
  lhsBatch := []
  rhsBatch := []
  wf := dot_S2048x144_S144x128_S2048x128_1_0_0_1_n_n_wf
def gather_S2048x128_S500000x1_S500000x128_1_0_n_n_0_1_1128 : GatherDims S2048x128 S500000x1 S500000x128 where
  offsetDims := [1]
  collapsedSliceDims := [0]
  operandBatchingDims := []
  startIndicesBatchingDims := []
  startIndexMap := [0]
  indexVectorDim := 1
  sliceSizes := ![1, 128]
  wf := gather_S2048x128_S500000x1_S500000x128_1_0_n_n_0_1_1128_wf
def dot_S5000x144_S144x128_S5000x128_1_0_0_1_n_n : DotDims S5000x144 S144x128 S5000x128 where
  lhsContracting := [1]
  rhsContracting := [0]
  lhsNonContracting := [0]
  rhsNonContracting := [1]
  lhsBatch := []
  rhsBatch := []
  wf := dot_S5000x144_S144x128_S5000x128_1_0_0_1_n_n_wf
def scatter_S2048x128_S500000x1_S500000x128_1_0_0_1 : ScatterDims S2048x128 S500000x1 S500000x128 where
  updateWindowDims := [1]
  insertedWindowDims := [0]
  scatterDimsToOperandDims := [0]
  indexVectorDim := 1
  wf := scatter_S2048x128_S500000x1_S500000x128_1_0_0_1_wf
def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v2) S5000x144.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v22) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v23) S144x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v24) S5000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v24) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v45) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v46_0) S5000x128.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v46_1) S128.size cc1_transform_5 reads1_5 true true 1 stage1_5 sem1_5
    hrank1 hreads1_5 hinb1_5 nbuf1_5 (Memref.isWhole_whole _) hwx1_5 hstage1_5

abbrev win1_6 : Pipeline.Window sig grid1 :=
  Pipeline.Window.ofSpec (Memref.whole main_v46_2) S128.size cc1_transform_6 reads1_6 true true 1 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_arg0) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v46_0) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v48) S128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v52) S128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg9) S128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg10) S128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v53) S5000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S500000x128 : Shape := ⟨2, ![500000, 128]⟩
abbrev S500000 : Shape := ⟨1, ![500000]⟩
abbrev S8x500000x2 : Shape := ⟨3, ![8, 500000, 2]⟩
abbrev S128x144 : Shape := ⟨2, ![128, 144]⟩
abbrev S128 : Shape := ⟨1, ![128]⟩
abbrev S128x128 : Shape := ⟨2, ![128, 128]⟩
abbrev S500000x8x2 : Shape := ⟨3, ![500000, 8, 2]⟩
abbrev S500000x16 : Shape := ⟨2, ![500000, 16]⟩
abbrev S500000x144 : Shape := ⟨2, ![500000, 144]⟩
abbrev S_ : Shape := ⟨0, ![]⟩
abbrev S2048x144 : Shape := ⟨2, ![2048, 144]⟩
abbrev S500000x1 : Shape := ⟨2, ![500000, 1]⟩
abbrev S2048x1 : Shape := ⟨2, ![2048, 1]⟩
abbrev S144x128 : Shape := ⟨2, ![144, 128]⟩
abbrev S1x128 : Shape := ⟨2, ![1, 128]⟩
abbrev S2048x128 : Shape := ⟨2, ![2048, 128]⟩

abbrev nBuf : Space → Nat
  | .hbm => 112
  | .vmem => 0
  | .smem => 0
  | _ => 0

abbrev bufTy : (tb : Table) → Fin (tcTables nBuf tb) → BufTy
  | .hbm, ⟨0, _⟩ => ⟨S500000x128, .f32⟩
  | .hbm, ⟨1, _⟩ => ⟨S500000, .i32⟩
  | .hbm, ⟨2, _⟩ => ⟨S8x500000x2, .f32⟩
  | .hbm, ⟨3, _⟩ => ⟨S128x144, .f32⟩
  | .hbm, ⟨4, _⟩ => ⟨S128, .f32⟩
  | .hbm, ⟨5, _⟩ => ⟨S128x144, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128, .f32⟩
  | .hbm, ⟨11, _⟩ => ⟨S500000x8x2, .f32⟩
  | .hbm, ⟨12, _⟩ => ⟨S500000x16, .f32⟩
  | .hbm, ⟨13, _⟩ => ⟨S500000x144, .f32⟩
  | .hbm, ⟨14, _⟩ => ⟨S_, .f32⟩
  | .hbm, ⟨15, _⟩ => ⟨S2048x144, .f32⟩
  | .hbm, ⟨16, _⟩ => ⟨S500000x1, .i32⟩
  | .hbm, ⟨17, _⟩ => ⟨S2048x144, .f32⟩
  | .hbm, ⟨18, _⟩ => ⟨S_, .f32⟩
  | .hbm, ⟨19, _⟩ => ⟨S500000x1, .f32⟩
  | .hbm, ⟨20, _⟩ => ⟨S_, .f32⟩
  | .hbm, ⟨21, _⟩ => ⟨S2048x1, .f32⟩
  | .hbm, ⟨22, _⟩ => ⟨S500000x1, .i32⟩
  | .hbm, ⟨23, _⟩ => ⟨S2048x1, .f32⟩
  | .hbm, ⟨24, _⟩ => ⟨S_, .f32⟩
  | .hbm, ⟨25, _⟩ => ⟨S2048x1, .f32⟩
  | .hbm, ⟨26, _⟩ => ⟨S2048x1, .f32⟩
  | .hbm, ⟨27, _⟩ => ⟨S2048x144, .f32⟩
  | .hbm, ⟨28, _⟩ => ⟨S2048x144, .f32⟩
  | .hbm, ⟨29, _⟩ => ⟨S144x128, .f32⟩
  | .hbm, ⟨30, _⟩ => ⟨S500000x128, .f32⟩
  | .hbm, ⟨31, _⟩ => ⟨S1x128, .f32⟩
  | .hbm, ⟨32, _⟩ => ⟨S500000x128, .f32⟩
  | .hbm, ⟨33, _⟩ => ⟨S500000x128, .f32⟩
  | .hbm, ⟨34, _⟩ => ⟨S144x128, .f32⟩
  | .hbm, ⟨35, _⟩ => ⟨S2048x128, .f32⟩
  | .hbm, ⟨36, _⟩ => ⟨S_, .i32⟩
  | .hbm, ⟨37, _⟩ => ⟨S500000, .i32⟩
  | .hbm, ⟨38, _⟩ => ⟨S500000, .i1⟩
  | .hbm, ⟨39, _⟩ => ⟨S_, .i32⟩
  | .hbm, ⟨40, _⟩ => ⟨S500000, .i32⟩
  | .hbm, ⟨41, _⟩ => ⟨S500000, .i32⟩
  | .hbm, ⟨42, _⟩ => ⟨S500000, .i32⟩
  | .hbm, ⟨43, _⟩ => ⟨S500000x1, .i32⟩
  | .hbm, ⟨44, _⟩ => ⟨S500000x128, .f32⟩
  | .hbm, ⟨45, _⟩ => ⟨S500000x128, .f32⟩
  | .hbm, ⟨46, _⟩ => ⟨S_, .f32⟩
  | .hbm, ⟨47, _⟩ => ⟨S500000x128, .f32⟩
  | .hbm, ⟨48, _⟩ => ⟨S500000x128, .f32⟩
  | .hbm, ⟨49, _⟩ => ⟨S_, .f32⟩
  | .hbm, ⟨50, _⟩ => ⟨S2048x128, .f32⟩
  | .hbm, ⟨51, _⟩ => ⟨S500000x1, .i32⟩
  | .hbm, ⟨52, _⟩ => ⟨S2048x128, .f32⟩
  | .hbm, ⟨53, _⟩ => ⟨S_, .f32⟩
  | .hbm, ⟨54, _⟩ => ⟨S500000x1, .f32⟩
  | .hbm, ⟨55, _⟩ => ⟨S_, .f32⟩
  | .hbm, ⟨56, _⟩ => ⟨S2048x1, .f32⟩
  | .hbm, ⟨57, _⟩ => ⟨S500000x1, .i32⟩
  | .hbm, ⟨58, _⟩ => ⟨S2048x1, .f32⟩
  | .hbm, ⟨59, _⟩ => ⟨S_, .f32⟩
  | .hbm, ⟨60, _⟩ => ⟨S2048x1, .f32⟩
  | .hbm, ⟨61, _⟩ => ⟨S2048x1, .f32⟩
  | .hbm, ⟨62, _⟩ => ⟨S2048x128, .f32⟩
  | .hbm, ⟨63, _⟩ => ⟨S2048x128, .f32⟩
  | .hbm, ⟨64, _⟩ => ⟨S128x128, .f32⟩
  | .hbm, ⟨65, _⟩ => ⟨S500000x128, .f32⟩
  | .hbm, ⟨66, _⟩ => ⟨S1x128, .f32⟩
  | .hbm, ⟨67, _⟩ => ⟨S500000x128, .f32⟩
  | .hbm, ⟨68, _⟩ => ⟨S500000x128, .f32⟩
  | .hbm, ⟨69, _⟩ => ⟨S128x128, .f32⟩
  | .hbm, ⟨70, _⟩ => ⟨S2048x128, .f32⟩
  | .hbm, ⟨71, _⟩ => ⟨S_, .i32⟩
  | .hbm, ⟨72, _⟩ => ⟨S500000, .i32⟩
  | .hbm, ⟨73, _⟩ => ⟨S500000, .i1⟩
  | .hbm, ⟨74, _⟩ => ⟨S_, .i32⟩
  | .hbm, ⟨75, _⟩ => ⟨S500000, .i32⟩
  | .hbm, ⟨76, _⟩ => ⟨S500000, .i32⟩
  | .hbm, ⟨77, _⟩ => ⟨S500000, .i32⟩
  | .hbm, ⟨78, _⟩ => ⟨S500000x1, .i32⟩
  | .hbm, ⟨79, _⟩ => ⟨S500000x128, .f32⟩
  | .hbm, ⟨80, _⟩ => ⟨S500000x128, .f32⟩
  | .hbm, ⟨81, _⟩ => ⟨S_, .f32⟩
  | .hbm, ⟨82, _⟩ => ⟨S128, .f32⟩
  | .hbm, ⟨83, _⟩ => ⟨S_, .f32⟩
  | .hbm, ⟨84, _⟩ => ⟨S128, .f32⟩
  | .hbm, ⟨85, _⟩ => ⟨S128, .f32⟩
  | .hbm, ⟨86, _⟩ => ⟨S1x128, .f32⟩
  | .hbm, ⟨87, _⟩ => ⟨S500000x128, .f32⟩
  | .hbm, ⟨88, _⟩ => ⟨S500000x128, .f32⟩
  | .hbm, ⟨89, _⟩ => ⟨S500000x128, .f32⟩
  | .hbm, ⟨90, _⟩ => ⟨S_, .f32⟩
  | .hbm, ⟨91, _⟩ => ⟨S128, .f32⟩
  | .hbm, ⟨92, _⟩ => ⟨S_, .f32⟩
  | .hbm, ⟨93, _⟩ => ⟨S128, .f32⟩
  | .hbm, ⟨94, _⟩ => ⟨S128, .f32⟩
  | .hbm, ⟨95, _⟩ => ⟨S1x128, .f32⟩
  | .hbm, ⟨96, _⟩ => ⟨S500000x128, .f32⟩
  | .hbm, ⟨97, _⟩ => ⟨S500000x128, .f32⟩
  | .hbm, ⟨98, _⟩ => ⟨S_, .f32⟩
  | .hbm, ⟨99, _⟩ => ⟨S128, .f32⟩
  | .hbm, ⟨100, _⟩ => ⟨S128, .f32⟩
  | .hbm, ⟨101, _⟩ => ⟨S128, .f32⟩
  | .hbm, ⟨102, _⟩ => ⟨S1x128, .f32⟩
  | .hbm, ⟨103, _⟩ => ⟨S500000x128, .f32⟩
  | .hbm, ⟨104, _⟩ => ⟨S500000x128, .f32⟩
  | .hbm, ⟨105, _⟩ => ⟨S1x128, .f32⟩
  | .hbm, ⟨106, _⟩ => ⟨S500000x128, .f32⟩
  | .hbm, ⟨107, _⟩ => ⟨S500000x128, .f32⟩
  | .hbm, ⟨108, _⟩ => ⟨S1x128, .f32⟩
  | .hbm, ⟨109, _⟩ => ⟨S500000x128, .f32⟩
  | .hbm, ⟨110, _⟩ => ⟨S500000x128, .f32⟩
  | .hbm, ⟨111, _⟩ => ⟨S500000x128, .f32⟩
  | _, _ => ⟨S500000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_cst : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_cst_0 : Ref sig .tc := ⟨.hbm, 18, rfl⟩
abbrev main_v6 : Ref sig .tc := ⟨.hbm, 19, rfl⟩
abbrev main_cst_1 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst_2 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_c : Ref sig .tc := ⟨.hbm, 36, rfl⟩
abbrev main_v21 : Ref sig .tc := ⟨.hbm, 37, rfl⟩
abbrev main_v22 : Ref sig .tc := ⟨.hbm, 38, rfl⟩
abbrev main_c_3 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_call0_cst : Ref sig .tc := ⟨.hbm, 46, rfl⟩
abbrev main_call0_v0 : Ref sig .tc := ⟨.hbm, 47, rfl⟩
abbrev main_v29 : Ref sig .tc := ⟨.hbm, 48, rfl⟩
abbrev main_cst_4 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_cst_5 : Ref sig .tc := ⟨.hbm, 53, rfl⟩
abbrev main_v33 : Ref sig .tc := ⟨.hbm, 54, rfl⟩
abbrev main_cst_6 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_cst_7 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_c_8 : Ref sig .tc := ⟨.hbm, 71, rfl⟩
abbrev main_v48 : Ref sig .tc := ⟨.hbm, 72, rfl⟩
abbrev main_v49 : Ref sig .tc := ⟨.hbm, 73, rfl⟩
abbrev main_c_9 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_cst_10 : Ref sig .tc := ⟨.hbm, 81, rfl⟩
abbrev main_v56 : Ref sig .tc := ⟨.hbm, 82, rfl⟩
abbrev main_cst_11 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_cst_12 : Ref sig .tc := ⟨.hbm, 90, rfl⟩
abbrev main_v63 : Ref sig .tc := ⟨.hbm, 91, rfl⟩
abbrev main_cst_13 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_cst_14 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩

abbrev nD : Nat := 1
abbrev τ : Topo := Topo.v7x

variable {F : FTy → Type} [FloatOps F]

class Facts₀ : Prop where
  transposes_S8x500000x2_S500000x8x2_1_0_2 : S8x500000x2.Transposes [1, 0, 2] S500000x8x2
  shapeCasts_S500000x8x2_S500000x16 : S500000x8x2.ShapeCasts S500000x16
  concatenates_S500000x128_S500000x16_S500000x144_d1 : Shape.Concatenates [S500000x128, S500000x16] S500000x144 1
  bcast_S_S2048x144 : S_.BroadcastsInDim S2048x144 (![] : Fin 0 → Fin S2048x144.rank)
  bcast_S500000_S500000x1_0 : S500000.BroadcastsInDim S500000x1 (![0] : Fin 1 → Fin S500000x1.rank)
  bcast_S_S500000x1 : S_.BroadcastsInDim S500000x1 (![] : Fin 0 → Fin S500000x1.rank)
  bcast_S_S2048x1 : S_.BroadcastsInDim S2048x1 (![] : Fin 0 → Fin S2048x1.rank)
  bcast_S2048x1_S2048x144_0_1 : S2048x1.BroadcastsInDim S2048x144 (![0, 1] : Fin 2 → Fin S2048x144.rank)
  transposes_S128x144_S144x128_1_0 : S128x144.Transposes [1, 0] S144x128
  bcast_S128_S1x128_1 : S128.BroadcastsInDim S1x128 (![1] : Fin 1 → Fin S1x128.rank)
  bcast_S1x128_S500000x128_0_1 : S1x128.BroadcastsInDim S500000x128 (![0, 1] : Fin 2 → Fin S500000x128.rank)
  bcast_S_S500000 : S_.BroadcastsInDim S500000 (![] : Fin 0 → Fin S500000.rank)
  bcast_S_S500000x128 : S_.BroadcastsInDim S500000x128 (![] : Fin 0 → Fin S500000x128.rank)
  bcast_S_S2048x128 : S_.BroadcastsInDim S2048x128 (![] : Fin 0 → Fin S2048x128.rank)
  bcast_S2048x1_S2048x128_0_1 : S2048x1.BroadcastsInDim S2048x128 (![0, 1] : Fin 2 → Fin S2048x128.rank)
  transposes_S128x128_S128x128_1_0 : S128x128.Transposes [1, 0] S128x128
  reducesTo_S500000x128_S128_d0 : S500000x128.ReducesTo [0] S128
  h_S_ : 0 < S_.numel
  bcast_S_S128 : S_.BroadcastsInDim S128 (![] : Fin 0 → Fin S128.rank)
  scatter_S2048x144_S500000x1_S500000x144_1_0_0_1_wf : ScatterDims.WF S2048x144 S500000x1 S500000x144 [1] [0] [0] 1
  scatter_S2048x1_S500000x1_S500000x1_1_0_0_1_wf : ScatterDims.WF S2048x1 S500000x1 S500000x1 [1] [0] [0] 1
  dot_S500000x144_S144x128_S500000x128_1_0_0_1_n_n_wf : DotDims.WF S500000x144 S144x128 S500000x128 [1] [0] [0] [1] [] []
  dot_S2048x144_S144x128_S2048x128_1_0_0_1_n_n_wf : DotDims.WF S2048x144 S144x128 S2048x128 [1] [0] [0] [1] [] []
  gather_S2048x128_S500000x1_S500000x128_1_0_n_n_0_1_1128_wf : GatherDims.WF S2048x128 S500000x1 S500000x128 [1] [0] [] [0] [] 1 ![1, 128]
  scatter_S2048x128_S500000x1_S500000x128_1_0_0_1_wf : ScatterDims.WF S2048x128 S500000x1 S500000x128 [1] [0] [0] 1
  dot_S500000x128_S128x128_S500000x128_1_0_0_1_n_n_wf : DotDims.WF S500000x128 S128x128 S500000x128 [1] [0] [0] [1] [] []
  dot_S2048x128_S128x128_S2048x128_1_0_0_1_n_n_wf : DotDims.WF S2048x128 S128x128 S2048x128 [1] [0] [0] [1] [] []

variable [Facts₀]

def scatter_S2048x144_S500000x1_S500000x144_1_0_0_1 : ScatterDims S2048x144 S500000x1 S500000x144 where
  updateWindowDims := [1]
  insertedWindowDims := [0]
  scatterDimsToOperandDims := [0]
  indexVectorDim := 1
  wf := scatter_S2048x144_S500000x1_S500000x144_1_0_0_1_wf
def scatter_S2048x1_S500000x1_S500000x1_1_0_0_1 : ScatterDims S2048x1 S500000x1 S500000x1 where
  updateWindowDims := [1]
  insertedWindowDims := [0]
  scatterDimsToOperandDims := [0]
  indexVectorDim := 1
  wf := scatter_S2048x1_S500000x1_S500000x1_1_0_0_1_wf
def dot_S500000x144_S144x128_S500000x128_1_0_0_1_n_n : DotDims S500000x144 S144x128 S500000x128 where
  lhsContracting := [1]
  rhsContracting := [0]
  lhsNonContracting := [0]
  rhsNonContracting := [1]
  lhsBatch := []
  rhsBatch := []
  wf := dot_S500000x144_S144x128_S500000x128_1_0_0_1_n_n_wf
def dot_S2048x144_S144x128_S2048x128_1_0_0_1_n_n : DotDims S2048x144 S144x128 S2048x128 where
  lhsContracting := [1]
  rhsContracting := [0]
  lhsNonContracting := [0]
  rhsNonContracting := [1]
  lhsBatch := []
  rhsBatch := []
  wf := dot_S2048x144_S144x128_S2048x128_1_0_0_1_n_n_wf
def gather_S2048x128_S500000x1_S500000x128_1_0_n_n_0_1_1128 : GatherDims S2048x128 S500000x1 S500000x128 where
  offsetDims := [1]
  collapsedSliceDims := [0]
  operandBatchingDims := []
  startIndicesBatchingDims := []
  startIndexMap := [0]
  indexVectorDim := 1
  sliceSizes := ![1, 128]
  wf := gather_S2048x128_S500000x1_S500000x128_1_0_n_n_0_1_1128_wf
def scatter_S2048x128_S500000x1_S500000x128_1_0_0_1 : ScatterDims S2048x128 S500000x1 S500000x128 where
  updateWindowDims := [1]
  insertedWindowDims := [0]
  scatterDimsToOperandDims := [0]
  indexVectorDim := 1
  wf := scatter_S2048x128_S500000x1_S500000x128_1_0_0_1_wf
def dot_S500000x128_S128x128_S500000x128_1_0_0_1_n_n : DotDims S500000x128 S128x128 S500000x128 where
  lhsContracting := [1]
  rhsContracting := [0]
  lhsNonContracting := [0]
  rhsNonContracting := [1]
  lhsBatch := []
  rhsBatch := []
  wf := dot_S500000x128_S128x128_S500000x128_1_0_0_1_n_n_wf
def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf

class Facts : Prop extends Facts₀ where

variable [Facts]
-- ==== Proof.Spec.lean ====
/-
  The layer, written once over whole arrays at the extended reals.

  N = 500000 rows, 128 features. A dense stage sends a row `x r` to `Σₖ x (r, k) · wT (k, h) + b h − lam (r, h)`
  (`lam` is the per-row copy of the row's group table); the first stage is followed by `max · 0`. The batch
  normalisation takes, per feature `h`, a mean and a variance of the column `y (·, h)` and returns
  `x + ((y − mean) · rsqrt (var + ε) · g + b)`. The two programs differ in how they get the column's variance: as the
  mean of the squared deviations, or as the mean of the squares less the squared mean.
-/
import Idealize.ShloMosaic.PureOps.Ideal
import Idealize.ShloMosaic.Lib.ValueIdx

noncomputable section

namespace Cert.Spec

open Idealize.ShloMosaic Idealize.ShloMosaic.ValueIdx
open scoped BigOperators

abbrev SNx144 : Shape := ⟨2, ![500000, 144]⟩
abbrev SNx128 : Shape := ⟨2, ![500000, 128]⟩
abbrev S144x128 : Shape := ⟨2, ![144, 128]⟩
abbrev S128x128 : Shape := ⟨2, ![128, 128]⟩
abbrev S128 : Shape := ⟨1, ![128]⟩

/-- The first dense stage before its `max`: 144 input features. -/
def lin144 (x : SNx144.Idx → EReal) (wT : S144x128.Idx → EReal) (b : S128.Idx → EReal) (lam : SNx128.Idx → EReal) :
    SNx128.Idx → EReal :=
  fun i => (∑ k : Fin 144, x (ix2 (i 0) k) * wT (ix2 k (i 1))) + b (ix1 (i 1)) - lam i

/-- The second dense stage: 128 input features. -/
def lin128 (x : SNx128.Idx → EReal) (wT : S128x128.Idx → EReal) (b : S128.Idx → EReal) (lam : SNx128.Idx → EReal) :
    SNx128.Idx → EReal :=
  fun i => (∑ k : Fin 128, x (ix2 (i 0) k) * wT (ix2 k (i 1))) + b (ix1 (i 1)) - lam i

/-- `max · 0`, the zero spelt as the float word both programs print. -/
def relu (y : SNx128.Idx → EReal) : SNx128.Idx → EReal :=
  fun i => max (y i) (Ideal.ofBits .f32 0x00000000#32)

/-- The sum of a column. -/
def colSum (y : SNx128.Idx → EReal) : S128.Idx → EReal :=
  fun h => ∑ r : Fin 500000, y (ix2 r (h 0))

/-- The sum of a column's squares. -/
def colSumSq (y : SNx128.Idx → EReal) : S128.Idx → EReal :=
  fun h => ∑ r : Fin 500000, y (ix2 r (h 0)) * y (ix2 r (h 0))

/-- The row count as the float word both programs divide by. -/
abbrev nWord : EReal := Ideal.ofBits .f32 0x48F42400#32

/-- The mean of a column: its sum over the row count. -/
def colMean (y : SNx128.Idx → EReal) : S128.Idx → EReal :=
  fun h => Ideal.div (colSum y h) nWord

/-- The variance as the kernel computes it: the mean of the squares less the squared mean. -/
def colVarK (y : SNx128.Idx → EReal) : S128.Idx → EReal :=
  fun h => Ideal.div (colSumSq y h) nWord - colMean y h * colMean y h

/-- The variance as the reference computes it: the mean of the squared deviations from the mean. -/
def colVarR (y : SNx128.Idx → EReal) : S128.Idx → EReal :=
  fun h => Ideal.div (∑ r : Fin 500000, (y (ix2 r (h 0)) - colMean y h) * (y (ix2 r (h 0)) - colMean y h)) nWord

/-- The normalisation and the residual, from a mean and a variance per feature. -/
def bnFinal (x y : SNx128.Idx → EReal) (mean var g b : S128.Idx → EReal) : SNx128.Idx → EReal :=
  fun i => x i + ((y i - mean (ix1 (i 1))) * Ideal.rsqrt (var (ix1 (i 1)) + Ideal.ofBits .f32 0x3727C5AC#32) * g (ix1 (i 1))
    + b (ix1 (i 1)))

/-- Every entry is a real number. -/
def IsReal {S : Shape} (v : S.Idx → EReal) : Prop := ∀ i, ∃ r : ℝ, v i = (r : EReal)

end Cert.Spec

end
-- ==== Proof.Glue.lean ====
/-
  The host operations between the kernel regions, read as values. The two programs share their host arithmetic, so each
  array a region is entered with is a stage of the reference's own computation applied to the launch arguments, once the
  arrays the earlier regions left are known to be such stages too.
-/
import proofs.«143154_j70317204570673_1_alg».proof.Proof.Gen.KernelIdeal.Frame
import proofs.«143154_j70317204570673_1_alg».proof.Proof.Gen.ReferenceIdeal.Read
import proofs.«143154_j70317204570673_1_alg».proof.Proof.Spec
import Idealize.ShloMosaic.Lib.StableHlo.Run

set_option maxRecDepth 16384

noncomputable section

namespace Cert.KernelIdeal.Glue

open Cert.KernelIdeal Cert.KernelIdeal.Gen Cert.Spec
open Idealize.ShloMosaic Idealize.ShloMosaic.TcCoe Idealize.SL.Sem Idealize.ShloMosaic.StableHlo

variable (m : (ℓ : Loc nD τ sig) → Buf (Elt Ideal) ℓ) (ρ : Dev nD → PrngReg)

/-! ## The arguments at every boundary -/

theorem W1_arg0 (c : Dev nD) : W1 m ρ c (Proc.devRef .tc main_arg0) = m ((c : Thread nD τ).loc main_arg0) := by
  show StableHlo.after hostOps0 (W0 m ρ c) (Proc.devRef .tc main_arg0) = _
  after_results
theorem W1_arg1 (c : Dev nD) : W1 m ρ c (Proc.devRef .tc main_arg1) = m ((c : Thread nD τ).loc main_arg1) := by
  show StableHlo.after hostOps0 (W0 m ρ c) (Proc.devRef .tc main_arg1) = _
  after_results
theorem W1_arg2 (c : Dev nD) : W1 m ρ c (Proc.devRef .tc main_arg2) = m ((c : Thread nD τ).loc main_arg2) := by
  show StableHlo.after hostOps0 (W0 m ρ c) (Proc.devRef .tc main_arg2) = _
  after_results
theorem W1_arg3 (c : Dev nD) : W1 m ρ c (Proc.devRef .tc main_arg3) = m ((c : Thread nD τ).loc main_arg3) := by
  show StableHlo.after hostOps0 (W0 m ρ c) (Proc.devRef .tc main_arg3) = _
  after_results
theorem W1_arg4 (c : Dev nD) : W1 m ρ c (Proc.devRef .tc main_arg4) = m ((c : Thread nD τ).loc main_arg4) := by
  show StableHlo.after hostOps0 (W0 m ρ c) (Proc.devRef .tc main_arg4) = _
  after_results
theorem W1_arg5 (c : Dev nD) : W1 m ρ c (Proc.devRef .tc main_arg5) = m ((c : Thread nD τ).loc main_arg5) := by
  show StableHlo.after hostOps0 (W0 m ρ c) (Proc.devRef .tc main_arg5) = _
  after_results
theorem W1_arg6 (c : Dev nD) : W1 m ρ c (Proc.devRef .tc main_arg6) = m ((c : Thread nD τ).loc main_arg6) := by
  show StableHlo.after hostOps0 (W0 m ρ c) (Proc.devRef .tc main_arg6) = _
  after_results
theorem W1_arg7 (c : Dev nD) : W1 m ρ c (Proc.devRef .tc main_arg7) = m ((c : Thread nD τ).loc main_arg7) := by
  show StableHlo.after hostOps0 (W0 m ρ c) (Proc.devRef .tc main_arg7) = _
  after_results
theorem W1_arg8 (c : Dev nD) : W1 m ρ c (Proc.devRef .tc main_arg8) = m ((c : Thread nD τ).loc main_arg8) := by
  show StableHlo.after hostOps0 (W0 m ρ c) (Proc.devRef .tc main_arg8) = _
  after_results
theorem W1_arg9 (c : Dev nD) : W1 m ρ c (Proc.devRef .tc main_arg9) = m ((c : Thread nD τ).loc main_arg9) := by
  show StableHlo.after hostOps0 (W0 m ρ c) (Proc.devRef .tc main_arg9) = _
  after_results
theorem W1_arg10 (c : Dev nD) : W1 m ρ c (Proc.devRef .tc main_arg10) = m ((c : Thread nD τ).loc main_arg10) := by
  show StableHlo.after hostOps0 (W0 m ρ c) (Proc.devRef .tc main_arg10) = _
  after_results

theorem W2_arg0 (c : Dev nD) : W2 m ρ c (Proc.devRef .tc main_arg0) = m ((c : Thread nD τ).loc main_arg0) :=
  (W2_of_ne m ρ c main_arg0 (by decide)).trans (W1_arg0 m ρ c)
theorem W2_arg1 (c : Dev nD) : W2 m ρ c (Proc.devRef .tc main_arg1) = m ((c : Thread nD τ).loc main_arg1) :=
  (W2_of_ne m ρ c main_arg1 (by decide)).trans (W1_arg1 m ρ c)
theorem W2_arg6 (c : Dev nD) : W2 m ρ c (Proc.devRef .tc main_arg6) = m ((c : Thread nD τ).loc main_arg6) :=
  (W2_of_ne m ρ c main_arg6 (by decide)).trans (W1_arg6 m ρ c)
theorem W2_arg7 (c : Dev nD) : W2 m ρ c (Proc.devRef .tc main_arg7) = m ((c : Thread nD τ).loc main_arg7) :=
  (W2_of_ne m ρ c main_arg7 (by decide)).trans (W1_arg7 m ρ c)
theorem W2_arg8 (c : Dev nD) : W2 m ρ c (Proc.devRef .tc main_arg8) = m ((c : Thread nD τ).loc main_arg8) :=
  (W2_of_ne m ρ c main_arg8 (by decide)).trans (W1_arg8 m ρ c)
theorem W2_arg9 (c : Dev nD) : W2 m ρ c (Proc.devRef .tc main_arg9) = m ((c : Thread nD τ).loc main_arg9) :=
  (W2_of_ne m ρ c main_arg9 (by decide)).trans (W1_arg9 m ρ c)
theorem W2_arg10 (c : Dev nD) : W2 m ρ c (Proc.devRef .tc main_arg10) = m ((c : Thread nD τ).loc main_arg10) :=
  (W2_of_ne m ρ c main_arg10 (by decide)).trans (W1_arg10 m ρ c)

theorem W3_arg0 (c : Dev nD) : W3 m ρ c (Proc.devRef .tc main_arg0) = m ((c : Thread nD τ).loc main_arg0) := by
  show StableHlo.after hostOps1 (W2 m ρ c) (Proc.devRef .tc main_arg0) = _
  after_results
  exact W2_arg0 m ρ c
theorem W4_arg0 (c : Dev nD) : W4 m ρ c (Proc.devRef .tc main_arg0) = m ((c : Thread nD τ).loc main_arg0) :=
  (W4_of_ne m ρ c main_arg0 (by decide)).trans (W3_arg0 m ρ c)
theorem V5_arg0 (c : Dev nD) : V5 m ρ c main_arg0 = m ((c : Thread nD τ).loc main_arg0) := by
  show StableHlo.after hostOps2 (W4 m ρ c) (Proc.devRef .tc main_arg0) = _
  after_results
  exact W4_arg0 m ρ c
theorem W3_arg9 (c : Dev nD) : W3 m ρ c (Proc.devRef .tc main_arg9) = m ((c : Thread nD τ).loc main_arg9) := by
  show StableHlo.after hostOps1 (W2 m ρ c) (Proc.devRef .tc main_arg9) = _
  after_results
  exact W2_arg9 m ρ c
theorem W4_arg9 (c : Dev nD) : W4 m ρ c (Proc.devRef .tc main_arg9) = m ((c : Thread nD τ).loc main_arg9) :=
  (W4_of_ne m ρ c main_arg9 (by decide)).trans (W3_arg9 m ρ c)
theorem V5_arg9 (c : Dev nD) : V5 m ρ c main_arg9 = m ((c : Thread nD τ).loc main_arg9) := by
  show StableHlo.after hostOps2 (W4 m ρ c) (Proc.devRef .tc main_arg9) = _
  after_results
  exact W4_arg9 m ρ c
theorem W3_arg10 (c : Dev nD) : W3 m ρ c (Proc.devRef .tc main_arg10) = m ((c : Thread nD τ).loc main_arg10) := by
  show StableHlo.after hostOps1 (W2 m ρ c) (Proc.devRef .tc main_arg10) = _
  after_results
  exact W2_arg10 m ρ c
theorem W4_arg10 (c : Dev nD) : W4 m ρ c (Proc.devRef .tc main_arg10) = m ((c : Thread nD τ).loc main_arg10) :=
  (W4_of_ne m ρ c main_arg10 (by decide)).trans (W3_arg10 m ρ c)
theorem V5_arg10 (c : Dev nD) : V5 m ρ c main_arg10 = m ((c : Thread nD τ).loc main_arg10) := by
  show StableHlo.after hostOps2 (W4 m ρ c) (Proc.devRef .tc main_arg10) = _
  after_results
  exact W4_arg10 m ρ c

/-! ## Region 0's entry -/

/-- The joined input `[x, persT]`. -/
theorem V1_v2 (c : Dev nD) :
    V1 m ρ c main_v2 = Cert.ReferenceIdeal.Read.val_main_v2 (F := Ideal) (m ((c : Thread nD τ).loc main_arg0)) (m ((c : Thread nD τ).loc main_arg2)) := by
  show StableHlo.after hostOps0 (W0 m ρ c) (Proc.devRef .tc main_v2) = _
  after_results
  rfl

set_option maxHeartbeats 2000000 in
/-- The first layer's group table, copied to every row. -/
theorem V1_v22 (c : Dev nD) :
    V1 m ρ c main_v22 = Cert.ReferenceIdeal.Read.val_main_v27 (F := Ideal) (m ((c : Thread nD τ).loc main_arg0)) (m ((c : Thread nD τ).loc main_arg1)) (m ((c : Thread nD τ).loc main_arg2)) (m ((c : Thread nD τ).loc main_arg5)) := by
  show StableHlo.after hostOps0 (W0 m ρ c) (Proc.devRef .tc main_v22) = _
  after_results_simp
  refine (congrArg₂ (Host.gather _) ?_ ?_ : Host.gather _ _ _ = Host.gather Cert.ReferenceIdeal.gather_S2048x128_S500000x1_S500000x128_1_0_n_n_0_1_1128 (Cert.ReferenceIdeal.Read.val_main_v20 (F := Ideal) (m ((c : Thread nD τ).loc main_arg0)) (m ((c : Thread nD τ).loc main_arg1)) (m ((c : Thread nD τ).loc main_arg2)) (m ((c : Thread nD τ).loc main_arg5))) (Cert.ReferenceIdeal.Read.val_main_v26 (F := Ideal) (m ((c : Thread nD τ).loc main_arg1))))
  · rfl
  · rfl

/-- The first layer's weights, transposed. -/
theorem V1_v23 (c : Dev nD) :
    V1 m ρ c main_v23 = Cert.ReferenceIdeal.Read.val_main_v14 (F := Ideal) (m ((c : Thread nD τ).loc main_arg3)) := by
  show StableHlo.after hostOps0 (W0 m ρ c) (Proc.devRef .tc main_v23) = _
  after_results
  rfl

theorem V1_arg4 (c : Dev nD) : V1 m ρ c main_arg4 = m ((c : Thread nD τ).loc main_arg4) := W1_arg4 m ρ c

/-! ## Region 1's entry -/

/-- Region 1's first operand is the array region 0 left. -/
theorem V3_v24 (c : Dev nD) : V3 m ρ c main_v24 = (dat0 (F := Ideal) (V1 m ρ) c).arrAt 4 cfg0.N := by
  show StableHlo.after hostOps1 (W2 m ρ c) (Proc.devRef .tc main_v24) = _
  after_results
  exact W2_arr m ρ c 4

set_option maxHeartbeats 2000000 in
/-- The second layer's group table, copied to every row, once region 0's result is known to be the reference's first
    layer. -/
theorem V3_v44 (c : Dev nD)
    (h24 : W2 m ρ c (Proc.devRef .tc main_v24) = (Cert.ReferenceIdeal.Read.val_main_v29 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)))) :
    V3 m ρ c main_v44 = Cert.ReferenceIdeal.Read.val_main_v54 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg8)) := by
  show StableHlo.after hostOps1 (W2 m ρ c) (Proc.devRef .tc main_v44) = _
  after_results_simp
  rw [h24, W2_arg1, W2_arg8]
  refine (congrArg₂ (Host.gather _) ?_ ?_ : Host.gather _ _ _ = Host.gather Cert.ReferenceIdeal.gather_S2048x128_S500000x1_S500000x128_1_0_n_n_0_1_1128 (Cert.ReferenceIdeal.Read.val_main_v47 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg8))) (Cert.ReferenceIdeal.Read.val_main_v53 (F := Ideal) (m ((c : Thread nD τ).loc main_arg1))))
  · rfl
  · rfl

/-- The second layer's weights, transposed. -/
theorem V3_v45 (c : Dev nD) : V3 m ρ c main_v45 = Cert.ReferenceIdeal.Read.val_main_v41 (F := Ideal) (m ((c : Thread nD τ).loc main_arg6)) := by
  show StableHlo.after hostOps1 (W2 m ρ c) (Proc.devRef .tc main_v45) = _
  after_results
  rw [W2_arg6]
  rfl

theorem V3_arg7 (c : Dev nD) : V3 m ρ c main_arg7 = m ((c : Thread nD τ).loc main_arg7) := by
  show StableHlo.after hostOps1 (W2 m ρ c) (Proc.devRef .tc main_arg7) = _
  after_results
  exact W2_arg7 m ρ c

/-! ## Region 2's entry -/

/-- Region 2's second operand is the row-block array region 1 left. -/
theorem V5_v46_0 (c : Dev nD) : V5 m ρ c main_v46_0 = (dat1 (F := Ideal) (V3 m ρ) c).arrAt 4 cfg1.N := by
  show StableHlo.after hostOps2 (W4 m ρ c) (Proc.devRef .tc main_v46_0) = _
  after_results
  exact W4_arr m ρ c 4

/-- The mean vector: region 1's first accumulator over the row count. -/
theorem V5_v48 (c : Dev nD) (y : SNx128.Idx → EReal)
    (h5 : W4 m ρ c (Proc.devRef .tc main_v46_1) = colSum y) : V5 m ρ c main_v48 = colMean y := by
  show StableHlo.after hostOps2 (W4 m ρ c) (Proc.devRef .tc main_v48) = _
  after_results
  rw [h5]
  rfl

/-- The variance vector: region 1's second accumulator over the row count, less the squared mean. -/
theorem V5_v52 (c : Dev nD) (y : SNx128.Idx → EReal)
    (h5 : W4 m ρ c (Proc.devRef .tc main_v46_1) = colSum y)
    (h6 : W4 m ρ c (Proc.devRef .tc main_v46_2) = colSumSq y) : V5 m ρ c main_v52 = colVarK y := by
  show StableHlo.after hostOps2 (W4 m ρ c) (Proc.devRef .tc main_v52) = _
  after_results
  rw [h5, h6]
  rfl

end Cert.KernelIdeal.Glue

end
-- ==== Proof.LibRowOps.lean ====
/-
  Two-axis operations read at a row and a column.

  General facts about arrays with two axes, written over indices `ix2 r c` with literal-typed coordinates, at the
  extended reals where arithmetic is involved:
  * a plain matrix product `[M, K] × [K, N]` into a zero accumulator is, at `(r, c)`, the sum over `k` of the left
    operand at `(r, k)` times the right at `(k, c)`;
  * a sum over the second axis of an `[R, n]` array is, at `r`, the sum over `k` of the array at `(r, k)`;
  * a one-axis array `[a]` cast to a column `[a, 1]` reads its entry `r`; a column `[a, 1]` broadcast to `[a, b]`
    reads the column's entry in the same row;
  * two arrays joined along the second axis read the first where the column falls inside it and the second, the first's
    width less, elsewhere.
-/
import Idealize.ShloMosaic.PureOps.Ideal.Laws
import Idealize.ShloMosaic.Lib.ValueIdx
import Idealize.ShloMosaic.Lib.ValueLayout
import Idealize.ShloMosaic.Lib.Pipeline.Value

noncomputable section

namespace Cert.RowOps

open Idealize.ShloMosaic Idealize.ShloMosaic.ValueIdx
open scoped BigOperators

/-! ## A plain matrix product -/

theorem plain_lhs0 (M K N : ℕ) (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

theorem plain_lhs1 (M K N : ℕ) (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

theorem plain_rhs0 (M K N : ℕ) (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

theorem plain_rhs1 (M K N : ℕ) (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The sum over the contraction index of a plain product, re-indexed by the one contracted coordinate. -/
theorem plain_sum (M K N : ℕ) (a : (⟨2, ![M, K]⟩ : Shape).Idx → EReal) (b : (⟨2, ![K, N]⟩ : Shape).Idx → EReal)
    (r : Fin M) (c : Fin N) :
    ∑ k : (DotDims.plain M K N).contr.Idx,
        a ((DotDims.plain M K N).lhsIdx (ix2 r c) k) * b ((DotDims.plain M K N).rhsIdx (ix2 r c) k)
      = ∑ k : Fin K, a (ix2 r k) * b (ix2 k c) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r c) ((contrEquiv1 (DotDims.plain M K N) K rfl rfl).symm k) = ix2 r k :=
    funext fun ax => Fin.ext (by
      match ax with
      | ⟨0, _⟩ => exact plain_lhs0 M K N _ _
      | ⟨1, _⟩ => exact (plain_lhs1 M K N _ _).trans hk)
  have er : (DotDims.plain M K N).rhsIdx (ix2 r c) ((contrEquiv1 (DotDims.plain M K N) K rfl rfl).symm k) = ix2 k c :=
    funext fun ax => Fin.ext (by
      match ax with
      | ⟨0, _⟩ => exact (plain_rhs0 M K N _ _).trans hk
      | ⟨1, _⟩ => exact plain_rhs1 M K N _ _)
  rw [el, er]

/-- A matrix product with plain dimension numbers into the zero accumulator, at `(r, c)`: `Σₖ a (r, k) · b (k, c)`.
    The dimension record may be any whose data are the plain ones (`hD`, by `rfl` for a printed record). -/
theorem matmul_plain_apply {M K N : ℕ} {φ₁ φ₂ : FTy} (D : DotDims ⟨2, ![M, K]⟩ ⟨2, ![K, N]⟩ ⟨2, ![M, N]⟩)
    (hD : D = DotDims.plain M K N) (prec : Option ContractPrecision)
    (a : FVec Ideal ⟨2, ![M, K]⟩ φ₁) (b : FVec Ideal ⟨2, ![K, N]⟩ φ₂) (r : Fin M) (c : Fin N) :
    matmul D prec a b (constant ⟨2, ![M, N]⟩ .f32 0x00000000#32) (ix2 r c) = ∑ k : Fin K, a (ix2 r k) * b (ix2 k c) := by
  subst hD
  exact (Ideal.matmul_constant_zero_apply (DotDims.plain M K N) prec a b (ix2 r c)).trans (plain_sum M K N a b r c)

/-! ## A sum along the second axis -/

/-- A float sum over axis 1 of an `[R, n]` array from the zero word, at `r`: `Σₖ x (r, k)`. -/
theorem multiReduction_add_rows {R n : ℕ} {φ : FTy} (x : FVec Ideal ⟨2, ![R, n]⟩ φ) (acc : BitVec φ.bits)
    (h : (⟨2, ![R, n]⟩ : Shape).Reduces [1] ⟨1, ![R]⟩) (hφ : FKind.Formats φ) (hacc : acc = FKind.add.neutral φ hφ) (r : Fin R) :
    multiReduction .add [1] ⟨1, ![R]⟩ x acc h hφ hacc (ix1 r) = ∑ k : Fin n, x (ix2 r k) := by
  refine (Ideal.multiReduction_add_single x acc h hφ hacc (ix1 r)).trans ?_
  refine Finset.sum_congr rfl fun k _ => congrArg x (funext fun ax => Fin.ext ?_)
  match ax with
  | ⟨0, _⟩ => rfl
  | ⟨1, _⟩ => rfl

/-! ## Columns -/

variable {α : Type}

/-- An `[a]` array cast to a column `[a, 1]` reads, at `(r, u)`, the operand at `r`. -/
theorem shapeCast_a_a1_apply {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A column `[a, 1]` broadcast to `[a, b]` reads, at `(r, c)`, the column's entry in row `r`. -/
theorem broadcastTo_a1_ab_apply {a b : ℕ} (v : (⟨2, ![a, 1]⟩ : Shape).Idx → α) (h : (⟨2, ![a, 1]⟩ : Shape).Broadcasts ⟨2, ![a, b]⟩)
    (r : Fin a) (c : Fin b) : broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

/-! ## Two arrays side by side -/

/-- Two arrays `[R, a]` and `[R, b]` joined along axis 1 into `[R, c]`, at `(r, k)`: the first at `(r, k)` when `k < a`,
    else the second at `(r, k - a)`. -/
theorem concatenate_cols_apply {R a b c : ℕ} (x₁ : (⟨2, ![R, a]⟩ : Shape).Idx → α) (x₂ : (⟨2, ![R, b]⟩ : Shape).Idx → α)
    (h : Shape.Concatenates [⟨2, ![R, a]⟩, ⟨2, ![R, b]⟩] ⟨2, ![R, c]⟩ 1) (hc : c = a + b) (r : Fin R) (k : Fin c) :
    concatenate ⟨2, ![R, c]⟩ 1 [⟨⟨2, ![R, a]⟩, x₁⟩, ⟨⟨2, ![R, b]⟩, x₂⟩] h (ix2 r k)
      = if hk : k.val < a then x₁ (ix2 r ⟨k.val, hk⟩) else x₂ (ix2 r ⟨k.val - a, by omega⟩) := by
  split
  · next hk =>
    refine concatenate_pair_apply_left 1 x₁ x₂ h (ix2 r k) rfl (ix2 r ⟨k.val, hk⟩) fun ax => ?_
    match ax with
    | ⟨0, _⟩ => rfl
    | ⟨1, _⟩ => rfl
  · next hk =>
    refine concatenate_pair_apply_right 1 x₁ x₂ h (ix2 r k) rfl rfl (ix2 r ⟨k.val - a, by omega⟩) (fun ax hne => ?_) ?_
    · match ax with
      | ⟨0, _⟩ => rfl
      | ⟨1, _⟩ => exact absurd rfl hne
    · show k.val - a + a = k.val
      omega

end Cert.RowOps

end
-- ==== Proof.Region0.lean ====
/-
  The first kernel region, read as a value: whatever the arrays hold when the region is entered, its result array ends
  holding `max (x0 · gwT + gb − lam) 0` of them, row block by row block (100 blocks of 5000 rows).
-/
import proofs.«143154_j70317204570673_1_alg».proof.Proof.Gen.KernelIdeal.Frame
import proofs.«143154_j70317204570673_1_alg».proof.Proof.Spec
import proofs.«143154_j70317204570673_1_alg».proof.Proof.LibRowOps
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Reg0

open Cert.KernelIdeal Cert.KernelIdeal.Gen Cert.Spec
open Idealize.ShloMosaic Idealize.ShloMosaic.TcCoe Idealize.ShloMosaic.ValueIdx Idealize.SL.Sem
open Idealize.ShloMosaic.Pipeline (Dat Cfg Window)
open scoped BigOperators

/-! ## One grid point's arithmetic, entry by entry -/

/-- The value one grid point stores, at row `p` and feature `q` of its block: the row of the first operand against
    column `q` of the weights, plus the bias at `q`, less the subtracted block's entry, then the larger of that and
    zero. The changes of float format and the same-shape casts are identities at the extended reals. -/
theorem pay_apply (x0 : Vec Ideal S5000x144 .f32) (x2 : Vec Ideal S144x128 .f32) (x3 : Vec Ideal S128 .f32)
    (x1 : Vec Ideal S5000x128 .f32) (p : Fin 5000) (q : Fin 128) :
    k0_pay1 x0 x2 x3 x1 (ix2 p q)
      = max ((∑ k : Fin 144, x0 (ix2 p k) * x2 (ix2 k q)) + x3 (ix1 q) - x1 (ix2 p q))
          (Ideal.ofBits .f32 0x00000000#32) := by
  have hm := Cert.RowOps.matmul_plain_apply dot_S5000x144_S144x128_S5000x128_1_0_0_1_n_n rfl none
    (truncf .bf16 (shapeCast S5000x144 x0 shapeCasts_S5000x144_S5000x144) bitsLt_bf16_f32 : FVec Ideal S5000x144 .bf16)
    (truncf .bf16 (shapeCast S144x128 x2 shapeCasts_S144x128_S144x128) bitsLt_bf16_f32 : FVec Ideal S144x128 .bf16) p q
  replace hm := hm.trans (show _ = ∑ k : Fin 144, x0 (ix2 p k) * x2 (ix2 k q) by simp only [truncf_apply, shapeCast_self])
  have hb : broadcastTo S5000x128 (shapeCast S1x128 x3 shapeCasts_S128_S1x128) broadcasts_S1x128_S5000x128 (ix2 p q)
      = x3 (ix1 q) :=
    (broadcastTo_1b_ab_apply _ broadcasts_S1x128_S5000x128 p q).trans
      (shapeCast_a_1a_apply x3 shapeCasts_S128_S1x128 (0 : Fin 1) q)
  have hc : shapeCast S5000x128 x1 shapeCasts_S5000x128_S5000x128 (ix2 p q) = x1 (ix2 p q) :=
    congrFun (shapeCast_self x1 shapeCasts_S5000x128_S5000x128) (ix2 p q)
  unfold k0_pay1
  refine (maximumf_apply _ _ _).trans ?_
  refine congrArg₂ max ?_ rfl
  refine (subf_apply _ _ _).trans ?_
  refine congrArg₂ (· - ·) ?_ hc
  refine (addf_apply _ _ _).trans ?_
  exact congrArg₂ (· + ·) hm hb

/-- The same, with each block's entries named as entries of whole arrays: when row `p` of the two row-blocked operands is
    row `r` of their arrays and the weights and the bias are read in place, the stored value is the layer's at `(r, q)`. -/
theorem pay_eq_spec (A : SNx144.Idx → EReal) (W : S144x128.Idx → EReal) (B : S128.Idx → EReal) (L : SNx128.Idx → EReal)
    (x0 : Vec Ideal S5000x144 .f32) (x2 : Vec Ideal S144x128 .f32) (x3 : Vec Ideal S128 .f32)
    (x1 : Vec Ideal S5000x128 .f32) (p : Fin 5000) (q : Fin 128) (r : Fin 500000)
    (h0 : ∀ k : Fin 144, x0 (ix2 p k) = A (ix2 r k)) (h2 : ∀ k : Fin 144, x2 (ix2 k q) = W (ix2 k q))
    (h3 : x3 (ix1 q) = B (ix1 q)) (h1 : x1 (ix2 p q) = L (ix2 r q)) :
    k0_pay1 x0 x2 x3 x1 (ix2 p q) = relu (lin144 A W B L) (ix2 r q) := by
  refine (pay_apply x0 x2 x3 x1 p q).trans ?_
  show _ = max ((∑ k : Fin 144, A (ix2 r k) * W (ix2 k q)) + B (ix1 q) - L (ix2 r q)) (Ideal.ofBits .f32 0x00000000#32)
  rw [h3, h1, Finset.sum_congr rfl fun k _ => congrArg₂ (· * ·) (h0 k) (h2 k)]

/-! ## Where each block sits in its array -/

theorem zeros2 : (![0, 0] : Fin 2 → Nat) = fun _ => 0 := funext fun a => by fin_cases a <;> rfl

theorem zeros1 : (![0] : Fin 1 → Nat) = fun _ => 0 := funext fun a => by fin_cases a; rfl

/-- The index maps over the 100 grid points: the two row-blocked operands and the result sit at block `(t, 0)`, the
    weights and the bias are whole at every point. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = t.val ∧ win0_4.index t (1 : Fin 2) = 0
    ∧ t.val < 100 :=
  (by decide +kernel : ∀ t : Fin grid0.N, _)

variable (V : (c : Dev nD) → (b : Ref sig .tc) → Buf (Elt Ideal) ((c : Thread nD τ).loc b))

/-- Row `p` of the first operand's block at point `t` is row `5000 t + p` of its array. -/
theorem read_blk0 (c : Dev nD) (t : Fin cfg0.N) (p : Fin 5000) (k : Fin 144) (r : Fin 500000)
    (hr : r.val = t.val * 5000 + p.val) :
    (iblk0 (F := Ideal) V c 0 t : Vec Ideal S5000x144 .f32) (ix2 p k) = (V c main_v2 : SNx144.Idx → EReal) (ix2 r k) := by
  obtain ⟨e0, e1, -⟩ := idx_facts t
  show (V c main_v2 : SNx144.Idx → EReal) (((cfg0.win 0).blk t).view.emb (ix2 p k)) = _
  refine congrArg (V c main_v2 : SNx144.Idx → EReal) (funext fun a => Fin.ext ?_)
  match a with
  | ⟨0, _⟩ => show win0_0.index t (0 : Fin 2) * 5000 + 1 * p.val = r.val; omega
  | ⟨1, _⟩ => show win0_0.index t (1 : Fin 2) * 144 + 1 * k.val = k.val; omega

/-- Row `p` of the subtracted operand's block at point `t` is row `5000 t + p` of its array. -/
theorem read_blk1 (c : Dev nD) (t : Fin cfg0.N) (p : Fin 5000) (q : Fin 128) (r : Fin 500000)
    (hr : r.val = t.val * 5000 + p.val) :
    (iblk0 (F := Ideal) V c 1 t : Vec Ideal S5000x128 .f32) (ix2 p q) = (V c main_v22 : SNx128.Idx → EReal) (ix2 r q) := by
  obtain ⟨-, -, e0, e1, -⟩ := idx_facts t
  show (V c main_v22 : SNx128.Idx → EReal) (((cfg0.win 1).blk t).view.emb (ix2 p q)) = _
  refine congrArg (V c main_v22 : SNx128.Idx → EReal) (funext fun a => Fin.ext ?_)
  match a with
  | ⟨0, _⟩ => show win0_1.index t (0 : Fin 2) * 5000 + 1 * p.val = r.val; omega
  | ⟨1, _⟩ => show win0_1.index t (1 : Fin 2) * 128 + 1 * q.val = q.val; omega

/-- The weights' block is the whole array at every point. -/
theorem read_blk2 (c : Dev nD) (t : Fin cfg0.N) (k : Fin 144) (q : Fin 128) :
    (iblk0 (F := Ideal) V c 2 t : Vec Ideal S144x128 .f32) (ix2 k q) = (V c main_v23 : S144x128.Idx → EReal) (ix2 k q) := by
  obtain ⟨-, -, -, -, e0, e1, -⟩ := idx_facts t
  show (V c main_v23 : S144x128.Idx → EReal) (((cfg0.win 2).blk t).view.emb (ix2 k q)) = _
  refine congrArg (V c main_v23 : S144x128.Idx → EReal) (funext fun a => Fin.ext ?_)
  match a with
  | ⟨0, _⟩ => show win0_2.index t (0 : Fin 2) * 144 + 1 * k.val = k.val; omega
  | ⟨1, _⟩ => show win0_2.index t (1 : Fin 2) * 128 + 1 * q.val = q.val; omega

/-- The bias' block is the whole array at every point. -/
theorem read_blk3 (c : Dev nD) (t : Fin cfg0.N) (q : Fin 128) :
    (iblk0 (F := Ideal) V c 3 t : Vec Ideal S128 .f32) (ix1 q) = (V c main_arg4 : S128.Idx → EReal) (ix1 q) := by
  obtain ⟨-, -, -, -, -, -, e0, -⟩ := idx_facts t
  show (V c main_arg4 : S128.Idx → EReal) (((cfg0.win 3).blk t).view.emb (ix1 q)) = _
  refine congrArg (V c main_arg4 : S128.Idx → EReal) (funext fun a => Fin.ext ?_)
  match a with
  | ⟨0, _⟩ => show win0_3.index t (0 : Fin 1) * 128 + 1 * q.val = q.val; omega

/-- Entry `(p, q)` of the result's block at point `t` is entry `(5000 t + p, q)` of the result array. -/
theorem emb_blk4 (t : Fin cfg0.N) (p : Fin 5000) (q : Fin 128) (r : Fin 500000)
    (hr : r.val = t.val * 5000 + p.val) :
    (((cfg0.win 4).blk t).view.emb (ix2 p q) : SNx128.Idx) = ix2 r q := by
  obtain ⟨-, -, -, -, -, -, -, e0, e1, -⟩ := idx_facts t
  refine funext fun a => Fin.ext ?_
  match a with
  | ⟨0, _⟩ => show win0_4.index t (0 : Fin 2) * 5000 + 1 * p.val = r.val; omega
  | ⟨1, _⟩ => show win0_4.index t (1 : Fin 2) * 128 + 1 * q.val = q.val; omega

/-! ## What one point writes back, and the whole array -/

/-- Point `t` writes back block `t` of `max (x0 · gwT + gb − lam) 0` of the arrays as the region finds them. -/
theorem flushed_eq (c : Dev nD) (t : Fin cfg0.N) :
    (dat0 (F := Ideal) V c).flushed 4 t
      = ((cfg0.win 4).blk t).view.read (Elt Ideal)
          (relu (lin144 (V c main_v2) (V c main_v23) (V c main_arg4) (V c main_v22))) := by
  show (cfg0.win 4).cut (grid0.coords t) ((dat0 V c).after 4 t) = _
  rw [after0_4]
  unfold out0_4
  rw [View.canon_unit_zero zeros2]
  simp only [View.ld_unit_zero (S := S5000x144) zeros2, View.ld_unit_zero (S := S144x128) zeros2,
    View.ld_unit_zero (S := S128) zeros1, View.ld_unit_zero (S := S5000x128) zeros2]
  have ht : t.val < 100 := (idx_facts t).2.2.2.2.2.2.2.2.2
  funext j
  obtain ⟨p, q, rfl⟩ : ∃ (p : Fin 5000) (q : Fin 128), j = ix2 p q := ⟨j 0, j 1, eq_ix2 j⟩
  obtain ⟨r, hr⟩ : ∃ r : Fin 500000, r.val = t.val * 5000 + p.val := ⟨⟨t.val * 5000 + p.val, by omega⟩, rfl⟩
  show k0_pay1 (iblk0 V c 0 t) (iblk0 V c 2 t) (iblk0 V c 3 t) (iblk0 V c 1 t) (ix2 p q)
    = relu (lin144 (V c main_v2) (V c main_v23) (V c main_arg4) (V c main_v22)) (((cfg0.win 4).blk t).view.emb (ix2 p q))
  rw [emb_blk4 t p q r hr]
  exact pay_eq_spec _ _ _ _ _ _ _ _ p q r (fun k => read_blk0 V c t p k r hr) (fun k => read_blk2 V c t k q)
    (read_blk3 V c t q) (read_blk1 V c t p q r hr)

/-- An entry of the result array is in point `t`'s block iff each coordinate is in the block's range on its axis. -/
theorem mem_blk (t : Fin cfg0.N) (i : S500000x128.Idx) :
    i ∈ ((cfg0.win 4).blk t).view.set
      ↔ ∀ a : Fin 2, win0_4.index t a * S5000x128.size a ≤ (i a).val
          ∧ (i a).val < win0_4.index t a * S5000x128.size a + S5000x128.size a := by
  show i ∈ ((View.whole main_v24).slice (win0_4.rect t)).set ↔ _
  rw [View.set_slice_whole, Rect.mem_set_unit]
  exact Iff.rfl

/-- Every entry of the result array is written back by some point: row `r` by point `r / 5000`. -/
theorem cover (i : S500000x128.Idx) :
    ∃ t : Fin cfg0.N, (cfg0.win 4).flush t = true ∧ i ∈ ((cfg0.win 4).blk t).view.set := by
  have hi0 : (i 0).val < 500000 := (i 0).isLt
  have hi1 : (i 1).val < 128 := (i 1).isLt
  obtain ⟨t, ht⟩ : ∃ t : Fin cfg0.N, t.val = (i 0).val / 5000 :=
    ⟨⟨(i 0).val / 5000, by rw [show cfg0.N = 100 from N_0]; omega⟩, rfl⟩
  obtain ⟨-, -, -, -, -, -, -, e0, e1, -⟩ := idx_facts t
  refine ⟨t, flush0_4 t, ?_⟩
  rw [mem_blk]
  intro a
  match a with
  | ⟨0, _⟩ =>
    show win0_4.index t (0 : Fin 2) * 5000 ≤ (i 0).val ∧ (i 0).val < win0_4.index t (0 : Fin 2) * 5000 + 5000
    omega
  | ⟨1, _⟩ =>
    show win0_4.index t (1 : Fin 2) * 128 ≤ (i 1).val ∧ (i 1).val < win0_4.index t (1 : Fin 2) * 128 + 128
    omega

/-- The result array of the first region after its 100 points. -/
theorem final0 (c : Dev nD) :
    (dat0 (F := Ideal) V c).arrAt 4 cfg0.N
      = relu (lin144 (V c main_v2) (V c main_v23) (V c main_arg4) (V c main_v22)) :=
  (dat0 V c).arrAt_eq_of_cover 4 _ (fun t _ => flushed_eq V c t) cover

end Cert.KernelIdeal.Reg0

end
-- ==== Proof.BlockSum.lean ====
/-
  A sum over 500000 rows, taken as 100 blocks of 5000 consecutive rows each, is the sum over all rows.
-/
import Mathlib.Algebra.BigOperators.Fin
import Mathlib.Data.EReal.Basic

noncomputable section

namespace Cert.BlockSum

open scoped BigOperators

/-- Row `5000 · t + r` of block `t`. -/
abbrev row (t : Fin 100) (r : Fin 5000) : Fin 500000 :=
  ⟨5000 * t.val + r.val, by have := t.isLt; have := r.isLt; omega⟩

/-- The bijection between (block, offset) pairs and rows. -/
def pairRow : Fin 100 × Fin 5000 ≃ Fin 500000 :=
  finProdFinEquiv.trans (finCongr (by norm_num))

/-- Summing block by block is summing over all rows (in any commutative monoid). -/
theorem blockSum_eq {M : Type*} [AddCommMonoid M] (f : Fin 500000 → M) :
    (∑ t : Fin 100, ∑ r : Fin 5000, f (row t r)) = ∑ k : Fin 500000, f k := by
  -- pairs (block, offset) are in bijection with rows, by (t, r) ↦ r + 5000 · t
  calc (∑ t : Fin 100, ∑ r : Fin 5000, f (row t r))
      = ∑ p : Fin 100 × Fin 5000, f (row p.1 p.2) :=
        (Fintype.sum_prod_type' (fun t r => f (row t r))).symm
    _ = ∑ p : Fin 100 × Fin 5000, f (pairRow p) := by
        refine Finset.sum_congr rfl fun p _ => ?_
        congr 1
        apply Fin.ext
        simp only [row, pairRow, Equiv.trans_apply, finProdFinEquiv_apply_val, finCongr_apply, Fin.coe_cast]
        omega
    _ = ∑ k : Fin 500000, f k := Equiv.sum_comp pairRow f

end Cert.BlockSum

end
-- ==== Proof.Region1.lean ====
/-
  The second kernel region, read as values: its row-block result `y = out1 · gwT + gb − lam`, and the two accumulators
  that add up, over the 100 row blocks, the column sums of `y` and of `y²`.
-/
import proofs.«143154_j70317204570673_1_alg».proof.Proof.Gen.KernelIdeal.Frame
import proofs.«143154_j70317204570673_1_alg».proof.Proof.Spec
import proofs.«143154_j70317204570673_1_alg».proof.Proof.LibRowOps
import proofs.«143154_j70317204570673_1_alg».proof.Proof.BlockSum
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Reg1

open Cert.KernelIdeal Cert.KernelIdeal.Gen Cert.Spec
open Idealize.ShloMosaic Idealize.ShloMosaic.TcCoe Idealize.ShloMosaic.ValueIdx Idealize.SL.Sem
open Idealize.ShloMosaic.Pipeline (Dat Cfg Window)
open scoped BigOperators

theorem hz2 : (![0, 0] : Fin 2 → Nat) = fun _ => 0 := funext fun a => by fin_cases a <;> rfl
theorem hz1 : (![0] : Fin 1 → Nat) = fun _ => 0 := funext fun a => by fin_cases a; rfl

/-! ## What each case of the body leaves in each output block

At the first grid point the two accumulator blocks are zeroed before they are read; at every later point they are read as
the point before left them. In both cases the dense block is the matrix product plus the bias less the `lam` block, and
each accumulator is its previous contents plus the column sums of the dense block (of its squares). -/

section Pieces
variable {F : FTy → Type} [FloatOps F]

theorem piece_A_4 (c : Dev nD) (i : grid1.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S128 .f32) (h4 : a4.IsWhole) (a5 : Memref sig .tc .vmem S5000x128 .f32) (h5 : a5.IsWhole) (a6 : Memref sig .tc .vmem S128 .f32) (h6 : a6.IsWhole) (a7 : Memref sig .tc .vmem S128 .f32) (h7 : a7.IsWhole) (hc : cond1_0 i) (x0 x1 : Vec F S5000x128 .f32) (x2 : Vec F S128x128 .f32) (x3 : Vec F S128 .f32) :
    out1_A_4 c i a1 h1 a2 h2 a3 h3 a4 h4 a5 h5 a6 h6 a7 h7 hc x0 x1 x2 x3 = k1_pay3 x0 x2 x3 x1 := by
  unfold out1_A_4
  rw [View.read_writes_eq_canon _ _ _ (cover1_A_4 c i a1 h1 a2 h2 a3 h3 a4 h4 a5 h5 a6 h6 a7 h7 hc x0 x1 x2 x3)]
  unfold kernelRun1_A
  dsimp only
  sl_unfold_words
  rw [View.canon_unit_zero hz2]
  simp only [View.readAt_eq_ld, h1.read_unread, h2.read_unread, h3.read_unread, h4.read_unread, View.ld_unit_zero (S := S5000x128) hz2, View.ld_unit_zero (S := S128x128) hz2, View.ld_unit_zero (S := S128) hz1]

theorem piece_A_5 (c : Dev nD) (i : grid1.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S128 .f32) (h4 : a4.IsWhole) (a5 : Memref sig .tc .vmem S5000x128 .f32) (h5 : a5.IsWhole) (a6 : Memref sig .tc .vmem S128 .f32) (h6 : a6.IsWhole) (a7 : Memref sig .tc .vmem S128 .f32) (h7 : a7.IsWhole) (hc : cond1_0 i) (x0 x1 : Vec F S5000x128 .f32) (x2 : Vec F S128x128 .f32) (x3 : Vec F S128 .f32) :
    out1_A_5 c i a1 h1 a2 h2 a3 h3 a4 h4 a5 h5 a6 h6 a7 h7 hc x0 x1 x2 x3 = k1_pay4 x0 x2 x3 x1 (k1_pay1 (F := F)) := by
  unfold out1_A_5
  rw [View.read_writes_eq_canon _ _ _ (cover1_A_5 c i a1 h1 a2 h2 a3 h3 a4 h4 a5 h5 a6 h6 a7 h7 hc x0 x1 x2 x3)]
  unfold kernelRun1_A
  dsimp only
  sl_unfold_words
  rw [View.canon_cons_unit_zero (S := S128) hz1]
  simp only [View.readAt_eq_ld, h1.read_unread, h2.read_unread, h3.read_unread, h4.read_unread, View.ld_unit_zero (S := S5000x128) hz2, View.ld_unit_zero (S := S128x128) hz2, View.ld_unit_zero (S := S128) hz1, View.readCov_unit_zero (S := S128) _ hz1]

theorem piece_A_6 (c : Dev nD) (i : grid1.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S128 .f32) (h4 : a4.IsWhole) (a5 : Memref sig .tc .vmem S5000x128 .f32) (h5 : a5.IsWhole) (a6 : Memref sig .tc .vmem S128 .f32) (h6 : a6.IsWhole) (a7 : Memref sig .tc .vmem S128 .f32) (h7 : a7.IsWhole) (hc : cond1_0 i) (x0 x1 : Vec F S5000x128 .f32) (x2 : Vec F S128x128 .f32) (x3 : Vec F S128 .f32) :
    out1_A_6 c i a1 h1 a2 h2 a3 h3 a4 h4 a5 h5 a6 h6 a7 h7 hc x0 x1 x2 x3 = k1_pay5 x0 x2 x3 x1 (k1_pay2 (F := F)) := by
  unfold out1_A_6
  rw [View.read_writes_eq_canon _ _ _ (cover1_A_6 c i a1 h1 a2 h2 a3 h3 a4 h4 a5 h5 a6 h6 a7 h7 hc x0 x1 x2 x3)]
  unfold kernelRun1_A
  dsimp only
  sl_unfold_words
  rw [View.canon_cons_unit_zero (S := S128) hz1]
  simp only [View.readAt_eq_ld, h1.read_unread, h2.read_unread, h3.read_unread, h4.read_unread, View.ld_unit_zero (S := S5000x128) hz2, View.ld_unit_zero (S := S128x128) hz2, View.ld_unit_zero (S := S128) hz1, View.readCov_unit_zero (S := S128) _ hz1]

theorem piece_B_4 (c : Dev nD) (i : grid1.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S128 .f32) (h4 : a4.IsWhole) (a5 : Memref sig .tc .vmem S5000x128 .f32) (h5 : a5.IsWhole) (a6 : Memref sig .tc .vmem S128 .f32) (h6 : a6.IsWhole) (a7 : Memref sig .tc .vmem S128 .f32) (h7 : a7.IsWhole) (hc : ¬cond1_0 i) (x0 x1 : Vec F S5000x128 .f32) (x2 : Vec F S128x128 .f32) (x3 : Vec F S128 .f32) (y5 y6 : Vec F S128 .f32) :
    out1_B_4 c i a1 h1 a2 h2 a3 h3 a4 h4 a5 h5 a6 h6 a7 h7 hc x0 x1 x2 x3 y5 y6 = k1_pay3 x0 x2 x3 x1 := by
  unfold out1_B_4
  rw [View.read_writes_eq_canon _ _ _ (cover1_B_4 c i a1 h1 a2 h2 a3 h3 a4 h4 a5 h5 a6 h6 a7 h7 hc x0 x1 x2 x3 y5 y6)]
  unfold kernelRun1_B
  dsimp only
  sl_unfold_words
  rw [View.canon_unit_zero hz2]
  simp only [View.readAt_eq_ld, h1.read_unread, h2.read_unread, h3.read_unread, h4.read_unread, View.ld_unit_zero (S := S5000x128) hz2, View.ld_unit_zero (S := S128x128) hz2, View.ld_unit_zero (S := S128) hz1]

theorem piece_B_5 (c : Dev nD) (i : grid1.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S128 .f32) (h4 : a4.IsWhole) (a5 : Memref sig .tc .vmem S5000x128 .f32) (h5 : a5.IsWhole) (a6 : Memref sig .tc .vmem S128 .f32) (h6 : a6.IsWhole) (a7 : Memref sig .tc .vmem S128 .f32) (h7 : a7.IsWhole) (hc : ¬cond1_0 i) (x0 x1 : Vec F S5000x128 .f32) (x2 : Vec F S128x128 .f32) (x3 : Vec F S128 .f32) (y5 y6 : Vec F S128 .f32) :
    out1_B_5 c i a1 h1 a2 h2 a3 h3 a4 h4 a5 h5 a6 h6 a7 h7 hc x0 x1 x2 x3 y5 y6 = k1_pay4 x0 x2 x3 x1 y5 := by
  unfold out1_B_5
  rw [View.read_writes_eq_canon _ _ _ (cover1_B_5 c i a1 h1 a2 h2 a3 h3 a4 h4 a5 h5 a6 h6 a7 h7 hc x0 x1 x2 x3 y5 y6)]
  unfold kernelRun1_B
  dsimp only
  sl_unfold_words
  rw [View.canon_unit_zero hz1]
  simp only [View.readAt_eq_ld, h1.read_unread, h2.read_unread, h3.read_unread, h4.read_unread, View.ld_unit_zero (S := S5000x128) hz2, View.ld_unit_zero (S := S128x128) hz2, View.ld_unit_zero (S := S128) hz1, h6.read_unread]

theorem piece_B_6 (c : Dev nD) (i : grid1.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S128 .f32) (h4 : a4.IsWhole) (a5 : Memref sig .tc .vmem S5000x128 .f32) (h5 : a5.IsWhole) (a6 : Memref sig .tc .vmem S128 .f32) (h6 : a6.IsWhole) (a7 : Memref sig .tc .vmem S128 .f32) (h7 : a7.IsWhole) (hc : ¬cond1_0 i) (x0 x1 : Vec F S5000x128 .f32) (x2 : Vec F S128x128 .f32) (x3 : Vec F S128 .f32) (y5 y6 : Vec F S128 .f32) :
    out1_B_6 c i a1 h1 a2 h2 a3 h3 a4 h4 a5 h5 a6 h6 a7 h7 hc x0 x1 x2 x3 y5 y6 = k1_pay5 x0 x2 x3 x1 y6 := by
  unfold out1_B_6
  rw [View.read_writes_eq_canon _ _ _ (cover1_B_6 c i a1 h1 a2 h2 a3 h3 a4 h4 a5 h5 a6 h6 a7 h7 hc x0 x1 x2 x3 y5 y6)]
  unfold kernelRun1_B
  dsimp only
  sl_unfold_words
  rw [View.canon_unit_zero hz1]
  simp only [View.readAt_eq_ld, h1.read_unread, h2.read_unread, h3.read_unread, h4.read_unread, View.ld_unit_zero (S := S5000x128) hz2, View.ld_unit_zero (S := S128x128) hz2, View.ld_unit_zero (S := S128) hz1, h7.read_unread]

end Pieces

/-! ## The body's arithmetic, entry by entry, over the extended reals -/

/-- A float sum over the first axis of an `[R, n]` array from the zero word, at column `c`: `Σₖ x (k, c)`. -/
theorem multiReduction_add_cols {R n : ℕ} {φ : FTy} (x : FVec Ideal ⟨2, ![R, n]⟩ φ) (acc : BitVec φ.bits)
    (h : (⟨2, ![R, n]⟩ : Shape).Reduces [0] ⟨1, ![n]⟩) (hφ : FKind.Formats φ) (hacc : acc = FKind.add.neutral φ hφ) (c : Fin n) :
    multiReduction .add [0] ⟨1, ![n]⟩ x acc h hφ hacc (ix1 c) = ∑ k : Fin R, x (ix2 k c) := by
  refine (Ideal.multiReduction_add_single x acc h hφ hacc (ix1 c)).trans ?_
  refine Finset.sum_congr rfl fun k _ => congrArg x (funext fun ax => Fin.ext ?_)
  match ax with
  | ⟨0, _⟩ => rfl
  | ⟨1, _⟩ => rfl

/-- A one-axis array `[n]` viewed as a row `[1, n]` and repeated down `R` rows reads, at `(r, c)`, its entry `c`. -/
theorem row_broadcast_apply (x : Vec Ideal S128 .f32) (p : Fin 5000) (q : Fin 128) :
    broadcastTo S5000x128 (shapeCast S1x128 x shapeCasts_S128_S1x128) broadcasts_S1x128_S5000x128 (ix2 p q) = x (ix1 q) := by
  refine (broadcastTo_apply (shapeCast S1x128 x shapeCasts_S128_S1x128) broadcasts_S1x128_S5000x128 (ix2 p q)
    (ix2 (0 : Fin 1) q) fun a => ?_).trans ?_
  · match a with
    | ⟨0, _⟩ => rfl
    | ⟨1, _⟩ => rfl
  · refine (shapeCast_addUnit_apply ![128] x shapeCasts_S128_S1x128 (ix2 (0 : Fin 1) q)).trans ?_
    refine congrArg x (funext fun a => ?_)
    match a with
    | ⟨0, _⟩ => rfl

/-- The dense block at row `p`, column `q`: the row of the first operand against the column of the weights, plus the
    bias of the column, less the `lam` entry. -/
theorem pay3_apply (x0 : Vec Ideal S5000x128 .f32) (x2 : Vec Ideal S128x128 .f32) (x3 : Vec Ideal S128 .f32)
    (x1 : Vec Ideal S5000x128 .f32) (p : Fin 5000) (q : Fin 128) :
    k1_pay3 x0 x2 x3 x1 (ix2 p q) = (∑ k : Fin 128, x0 (ix2 p k) * x2 (ix2 k q)) + x3 (ix1 q) - x1 (ix2 p q) := by
  unfold k1_pay3
  have e0 : shapeCast S5000x128 x0 shapeCasts_S5000x128_S5000x128 = x0 := shapeCast_self _ _
  have e1 : shapeCast S5000x128 x1 shapeCasts_S5000x128_S5000x128 = x1 := shapeCast_self _ _
  have e2 : shapeCast S128x128 x2 shapeCasts_S128x128_S128x128 = x2 := shapeCast_self _ _
  rw [e0, e1, e2]
  have em := Cert.RowOps.matmul_plain_apply dot_S5000x128_S128x128_S5000x128_1_0_0_1_n_n rfl none
    (truncf .bf16 (x0 : FVec Ideal S5000x128 .f32) bitsLt_bf16_f32) (truncf .bf16 (x2 : FVec Ideal S128x128 .f32) bitsLt_bf16_f32) p q
  have eb := row_broadcast_apply x3 p q
  exact (congrArg₂ (fun z w => z + w - x1 (ix2 p q)) em eb)

/-- The first accumulator's new entry at column `q`: its old entry plus the column sum of the dense block. -/
theorem pay4_apply (x0 : Vec Ideal S5000x128 .f32) (x2 : Vec Ideal S128x128 .f32) (x3 : Vec Ideal S128 .f32)
    (x1 : Vec Ideal S5000x128 .f32) (y : Vec Ideal S128 .f32) (q : Fin 128) :
    k1_pay4 x0 x2 x3 x1 y (ix1 q) = y (ix1 q) + ∑ p : Fin 5000, k1_pay3 x0 x2 x3 x1 (ix2 p q) := by
  unfold k1_pay4
  have e : shapeCast S128 y shapeCasts_S128_S128 = y := shapeCast_self _ _
  rw [e]
  show y (ix1 q) + multiReduction .add [0] S128 (k1_pay3 x0 x2 x3 x1) 0x00000000#32 reduces_S5000x128_S128 (.inl rfl) rfl (ix1 q) = _
  exact congrArg (fun z => y (ix1 q) + z)
    (multiReduction_add_cols (k1_pay3 x0 x2 x3 x1) 0x00000000#32 reduces_S5000x128_S128 (.inl rfl) rfl q)

/-- The second accumulator's new entry at column `q`: its old entry plus the column sum of the dense block's squares. -/
theorem pay5_apply (x0 : Vec Ideal S5000x128 .f32) (x2 : Vec Ideal S128x128 .f32) (x3 : Vec Ideal S128 .f32)
    (x1 : Vec Ideal S5000x128 .f32) (y : Vec Ideal S128 .f32) (q : Fin 128) :
    k1_pay5 x0 x2 x3 x1 y (ix1 q)
      = y (ix1 q) + ∑ p : Fin 5000, k1_pay3 x0 x2 x3 x1 (ix2 p q) * k1_pay3 x0 x2 x3 x1 (ix2 p q) := by
  unfold k1_pay5
  have e : shapeCast S128 y shapeCasts_S128_S128 = y := shapeCast_self _ _
  rw [e]
  show y (ix1 q) + multiReduction .add [0] S128 (mulf (k1_pay3 x0 x2 x3 x1) (k1_pay3 x0 x2 x3 x1)) 0x00000000#32
    reduces_S5000x128_S128 (.inl rfl) rfl (ix1 q) = _
  exact congrArg (fun z => y (ix1 q) + z)
    (multiReduction_add_cols (mulf (k1_pay3 x0 x2 x3 x1) (k1_pay3 x0 x2 x3 x1)) 0x00000000#32 reduces_S5000x128_S128 (.inl rfl) rfl q)

/-- The block the reset stores is zero everywhere. -/
theorem pay1_apply (q : Fin 128) : k1_pay1 (F := Ideal) (ix1 q) = 0 := Ideal.ofBits_zero_f32
theorem pay2_apply (q : Fin 128) : k1_pay2 (F := Ideal) (ix1 q) = 0 := Ideal.ofBits_zero_f32

variable (V : (c : Dev nD) → (b : Ref sig .tc) → Buf (Elt Ideal) ((c : Thread nD τ).loc b))

/-- The dense result of the second region. -/
abbrev y1 (c : Dev nD) : SNx128.Idx → EReal := lin128 (V c main_v24) (V c main_v45) (V c main_arg7) (V c main_v44)

/-! ## The blocks a grid point reads

Point `t` reads rows `5000 t … 5000 t + 4999` of the first operand and of `lam`, and the whole weights and bias. -/

/-- The four input blocks of point `t`, at their literal shapes. -/
abbrev xb0 (c : Dev nD) (t : Fin cfg1.N) : Vec Ideal S5000x128 .f32 := iblk1 V c 0 t
abbrev xb1 (c : Dev nD) (t : Fin cfg1.N) : Vec Ideal S5000x128 .f32 := iblk1 V c 1 t
abbrev xb2 (c : Dev nD) (t : Fin cfg1.N) : Vec Ideal S128x128 .f32 := iblk1 V c 2 t
abbrev xb3 (c : Dev nD) (t : Fin cfg1.N) : Vec Ideal S128 .f32 := iblk1 V c 3 t

/-- The four input arrays, at their literal shapes. -/
abbrev arrX (c : Dev nD) : Vec Ideal S500000x128 .f32 := V c main_v24
abbrev arrL (c : Dev nD) : Vec Ideal S500000x128 .f32 := V c main_v44
abbrev arrW (c : Dev nD) : Vec Ideal S128x128 .f32 := V c main_v45
abbrev arrB (c : Dev nD) : Vec Ideal S128 .f32 := V c main_arg7

/-- Row `p` of block `t` is row `5000 t + p` of the array. -/
abbrev rowOf (t : Fin cfg1.N) (p : Fin 5000) : Fin 500000 :=
  ⟨5000 * t.val + p.val, by have := t.isLt; have hN : cfg1.N = 100 := N_1; have := p.isLt; omega⟩

/-- The block index of every window at every point, decided over the grid. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = t.val ∧ win1_4.index t (1 : Fin 2) = 0
    ∧ win1_5.index t (0 : Fin 1) = 0
    ∧ win1_6.index t (0 : Fin 1) = 0 :=
  (by decide +kernel : ∀ t : Fin grid1.N, _)

theorem xb0_apply (c : Dev nD) (t : Fin cfg1.N) (p : Fin 5000) (k : Fin 128) :
    xb0 V c t (ix2 p k) = arrX V c (ix2 (rowOf t p) k) := by
  obtain ⟨e0, e1, -⟩ := idx_facts t
  show ((cfg1.win 0).blk t).view.read (Elt Ideal) (V c main_v24) (ix2 p k) = V c main_v24 _
  rw [View.read_apply]
  refine congrArg (V c main_v24) (funext fun a => Fin.ext ?_)
  match a with
  | ⟨0, _⟩ => show win1_0.index t (0 : Fin 2) * 5000 + 1 * p.val = 5000 * t.val + p.val; rw [e0]; omega
  | ⟨1, _⟩ => show win1_0.index t (1 : Fin 2) * 128 + 1 * k.val = k.val; rw [e1]; omega

theorem xb1_apply (c : Dev nD) (t : Fin cfg1.N) (p : Fin 5000) (k : Fin 128) :
    xb1 V c t (ix2 p k) = arrL V c (ix2 (rowOf t p) k) := by
  obtain ⟨-, -, e0, e1, -⟩ := idx_facts t
  show ((cfg1.win 1).blk t).view.read (Elt Ideal) (V c main_v44) (ix2 p k) = V c main_v44 _
  rw [View.read_apply]
  refine congrArg (V c main_v44) (funext fun a => Fin.ext ?_)
  match a with
  | ⟨0, _⟩ => show win1_1.index t (0 : Fin 2) * 5000 + 1 * p.val = 5000 * t.val + p.val; rw [e0]; omega
  | ⟨1, _⟩ => show win1_1.index t (1 : Fin 2) * 128 + 1 * k.val = k.val; rw [e1]; omega

theorem xb2_apply (c : Dev nD) (t : Fin cfg1.N) (k : Fin 128) (q : Fin 128) :
    xb2 V c t (ix2 k q) = arrW V c (ix2 k q) := by
  obtain ⟨-, -, -, -, e0, e1, -⟩ := idx_facts t
  show ((cfg1.win 2).blk t).view.read (Elt Ideal) (V c main_v45) (ix2 k q) = V c main_v45 _
  rw [View.read_apply]
  refine congrArg (V c main_v45) (funext fun a => Fin.ext ?_)
  match a with
  | ⟨0, _⟩ => show win1_2.index t (0 : Fin 2) * 128 + 1 * k.val = k.val; rw [e0]; omega
  | ⟨1, _⟩ => show win1_2.index t (1 : Fin 2) * 128 + 1 * q.val = q.val; rw [e1]; omega

theorem xb3_apply (c : Dev nD) (t : Fin cfg1.N) (q : Fin 128) :
    xb3 V c t (ix1 q) = arrB V c (ix1 q) := by
  obtain ⟨-, -, -, -, -, -, e0, -⟩ := idx_facts t
  show ((cfg1.win 3).blk t).view.read (Elt Ideal) (V c main_arg7) (ix1 q) = V c main_arg7 _
  rw [View.read_apply]
  refine congrArg (V c main_arg7) (funext fun a => Fin.ext ?_)
  match a with
  | ⟨0, _⟩ => show win1_3.index t (0 : Fin 1) * 128 + 1 * q.val = q.val; rw [e0]; omega

/-- The dense block of point `t` is rows `5000 t …` of the dense result. -/
theorem dense_blk (c : Dev nD) (t : Fin cfg1.N) (p : Fin 5000) (q : Fin 128) :
    k1_pay3 (xb0 V c t) (xb2 V c t) (xb3 V c t) (xb1 V c t) (ix2 p q) = y1 V c (ix2 (rowOf t p) q) := by
  refine (pay3_apply (xb0 V c t) (xb2 V c t) (xb3 V c t) (xb1 V c t) p q).trans ?_
  rw [xb3_apply V c t q, xb1_apply V c t p q]
  show _ = (∑ k : Fin 128, arrX V c (ix2 (rowOf t p) k) * arrW V c (ix2 k q)) + arrB V c (ix1 q)
    - arrL V c (ix2 (rowOf t p) q)
  refine congrArg (fun z => z + arrB V c (ix1 q) - arrL V c (ix2 (rowOf t p) q)) ?_
  exact Finset.sum_congr rfl fun k _ => by rw [xb0_apply V c t p k, xb2_apply V c t k q]

/-! ## What the three output blocks hold after point `t` -/

theorem out4_eq (c : Dev nD) (t : Fin cfg1.N) :
    (outsAt1 V c t.val t.isLt).1 = k1_pay3 (xb0 V c t) (xb2 V c t) (xb3 V c t) (xb1 V c t) := by
  by_cases h0 : t.val % 100 = 0
  · rw [outsAt1_A V c t h0]; dsimp only
    exact piece_A_4 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) ((hcond1_0 t).mpr h0) (iblk1 V c 0 t) (iblk1 V c 1 t) (iblk1 V c 2 t) (iblk1 V c 3 t)
  · rw [outsAt1_B V c t h0]; dsimp only
    exact piece_B_4 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (fun h => h0 ((hcond1_0 t).mp h)) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2

theorem out5_A (c : Dev nD) (t : Fin cfg1.N) (h0 : t.val % 100 = 0) :
    (outsAt1 V c t.val t.isLt).2.1 = k1_pay4 (xb0 V c t) (xb2 V c t) (xb3 V c t) (xb1 V c t) (k1_pay1 (F := Ideal)) := by
  rw [outsAt1_A V c t h0]; dsimp only
  exact piece_A_5 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) ((hcond1_0 t).mpr h0) (iblk1 V c 0 t) (iblk1 V c 1 t) (iblk1 V c 2 t) (iblk1 V c 3 t)

theorem out5_B (c : Dev nD) (t : Fin cfg1.N) (h0 : ¬t.val % 100 = 0) :
    (outsAt1 V c t.val t.isLt).2.1 = k1_pay4 (xb0 V c t) (xb2 V c t) (xb3 V c t) (xb1 V c t) (outsAt1 V c (t.val - 1) (Nat.lt_of_le_of_lt (Nat.sub_le _ _) t.isLt)).2.1 := by
  rw [outsAt1_B V c t h0]; dsimp only
  exact piece_B_5 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (fun h => h0 ((hcond1_0 t).mp h)) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2

theorem out6_A (c : Dev nD) (t : Fin cfg1.N) (h0 : t.val % 100 = 0) :
    (outsAt1 V c t.val t.isLt).2.2 = k1_pay5 (xb0 V c t) (xb2 V c t) (xb3 V c t) (xb1 V c t) (k1_pay2 (F := Ideal)) := by
  rw [outsAt1_A V c t h0]; dsimp only
  exact piece_A_6 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) ((hcond1_0 t).mpr h0) (iblk1 V c 0 t) (iblk1 V c 1 t) (iblk1 V c 2 t) (iblk1 V c 3 t)

theorem out6_B (c : Dev nD) (t : Fin cfg1.N) (h0 : ¬t.val % 100 = 0) :
    (outsAt1 V c t.val t.isLt).2.2 = k1_pay5 (xb0 V c t) (xb2 V c t) (xb3 V c t) (xb1 V c t) (outsAt1 V c (t.val - 1) (Nat.lt_of_le_of_lt (Nat.sub_le _ _) t.isLt)).2.2 := by
  rw [outsAt1_B V c t h0]; dsimp only
  exact piece_B_6 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (fun h => h0 ((hcond1_0 t).mp h)) (iblk1 V c 0 t) (iblk1 V c 1 t) (iblk1 V c 2 t) (iblk1 V c 3 t) (outsAt1 V c (t.val - 1) (Nat.lt_of_le_of_lt (Nat.sub_le _ _) t.isLt)).2.1 (outsAt1 V c (t.val - 1) (Nat.lt_of_le_of_lt (Nat.sub_le _ _) t.isLt)).2.2

/-! ## The row-block output: every point writes back its rows of the dense result, and the blocks cover the array -/

theorem flushed4_eq (c : Dev nD) (t : Fin cfg1.N) :
    (dat1 V c).flushed 4 t = ((cfg1.win 4).blk t).view.read (Elt Ideal) (y1 V c) := by
  show (cfg1.win 4).cut (grid1.coords t) ((dat1 V c).after 4 t) = _
  rw [after1_4, out4_eq V c t]
  obtain ⟨-, -, -, -, -, -, -, e0, e1, -⟩ := idx_facts t
  funext j
  have hj0 : (j 0).val < 5000 := (j 0).isLt
  have hj1 : (j 1).val < 128 := (j 1).isLt
  refine Eq.trans (b := k1_pay3 (xb0 V c t) (xb2 V c t) (xb3 V c t) (xb1 V c t) (ix2 ⟨(j 0).val, hj0⟩ ⟨(j 1).val, hj1⟩))
    (congrArg (k1_pay3 (xb0 V c t) (xb2 V c t) (xb3 V c t) (xb1 V c t)) (funext fun a => match a with | ⟨0, _⟩ => rfl | ⟨1, _⟩ => rfl)) ?_
  rw [dense_blk V c t ⟨(j 0).val, hj0⟩ ⟨(j 1).val, hj1⟩, View.read_apply]
  refine congrArg (y1 V c) (funext fun a => Fin.ext ?_)
  match a with
  | ⟨0, _⟩ => show 5000 * t.val + (j 0).val = win1_4.index t (0 : Fin 2) * 5000 + 1 * (j 0).val; rw [e0]; omega
  | ⟨1, _⟩ => show (j 1).val = win1_4.index t (1 : Fin 2) * 128 + 1 * (j 1).val; rw [e1]; omega

/-- An index of the array is in point `t`'s block iff each coordinate is in the block's range on its axis. -/
theorem mem_blk4 (t : Fin cfg1.N) (i : S500000x128.Idx) :
    i ∈ ((cfg1.win 4).blk t).view.set ↔ ∀ a : Fin 2, win1_4.index t a * S5000x128.size a ≤ (i a).val ∧ (i a).val < win1_4.index t a * S5000x128.size a + S5000x128.size a := by
  show i ∈ ((View.whole main_v46_0).slice (win1_4.rect t)).set ↔ _
  rw [View.set_slice_whole, Rect.mem_set_unit]
  exact Iff.rfl

/-- Row `r` lies in block `r / 5000`. -/
theorem cover4 (i : S500000x128.Idx) : ∃ t : Fin cfg1.N, (cfg1.win 4).flush t = true ∧ i ∈ ((cfg1.win 4).blk t).view.set := by
  have hi0 : (i 0).val < 500000 := (i 0).isLt
  have hi1 : (i 1).val < 128 := (i 1).isLt
  have hN : cfg1.N = 100 := N_1
  let t : Fin cfg1.N := ⟨(i 0).val / 5000, by omega⟩
  obtain ⟨-, -, -, -, -, -, -, e0, e1, -⟩ := idx_facts t
  refine ⟨t, flush1_4 t, ?_⟩
  rw [mem_blk4]
  intro a
  match a with
  | ⟨0, _⟩ =>
    show win1_4.index t (0 : Fin 2) * 5000 ≤ (i 0).val ∧ (i 0).val < win1_4.index t (0 : Fin 2) * 5000 + 5000
    rw [e0]; show (i 0).val / 5000 * 5000 ≤ (i 0).val ∧ (i 0).val < (i 0).val / 5000 * 5000 + 5000; omega
  | ⟨1, _⟩ =>
    show win1_4.index t (1 : Fin 2) * 128 ≤ (i 1).val ∧ (i 1).val < win1_4.index t (1 : Fin 2) * 128 + 128
    rw [e1]; omega

/-- The row-block result array of the second region after its 100 points. -/
theorem final1_out (c : Dev nD) : (dat1 (F := Ideal) V c).arrAt 4 cfg1.N = y1 V c := by
  exact (dat1 V c).arrAt_eq_of_cover 4 (y1 V c) (fun t _ => flushed4_eq V c t) cover4

/-! ## The two accumulators: after point `n` they hold the sums over blocks `0 … n`

The accumulator blocks stay in place from point to point; the first point starts them from zero, every point adds its
block's column sums. So after point `n` an accumulator holds the sum, over the blocks so far, of each block's column
sums; after the last point that is the column sum over all 500000 rows. -/

/-- The column sum of block `t` of the dense result (zero past the grid). -/
def blkSum (c : Dev nD) (t : ℕ) (q : Fin 128) : EReal :=
  if h : t < cfg1.N then ∑ p : Fin 5000, y1 V c (ix2 (rowOf ⟨t, h⟩ p) q) else 0

/-- The column sum of squares of block `t` of the dense result (zero past the grid). -/
def blkSumSq (c : Dev nD) (t : ℕ) (q : Fin 128) : EReal :=
  if h : t < cfg1.N then ∑ p : Fin 5000, y1 V c (ix2 (rowOf ⟨t, h⟩ p) q) * y1 V c (ix2 (rowOf ⟨t, h⟩ p) q) else 0

theorem acc5 (c : Dev nD) : ∀ (n : ℕ) (hn : n < cfg1.N) (q : Fin 128),
    (outsAt1 V c n hn).2.1 (ix1 q) = ∑ t ∈ Finset.range (n + 1), blkSum V c t q
  | 0, hn, q => by
    have h0 : (⟨0, hn⟩ : Fin cfg1.N).val % 100 = 0 := Nat.zero_mod _
    refine (congrFun (out5_A V c ⟨0, hn⟩ h0) (ix1 q)).trans ?_
    refine (pay4_apply (xb0 V c ⟨0, hn⟩) (xb2 V c ⟨0, hn⟩) (xb3 V c ⟨0, hn⟩) (xb1 V c ⟨0, hn⟩) (k1_pay1 (F := Ideal)) q).trans ?_
    rw [pay1_apply q, zero_add, Finset.sum_range_one]
    unfold blkSum; rw [dif_pos hn]
    exact Finset.sum_congr rfl fun p _ => by rw [dense_blk V c ⟨0, hn⟩ p q]
  | n + 1, hn, q => by
    have hN : cfg1.N = 100 := N_1
    have h0 : ¬(⟨n + 1, hn⟩ : Fin cfg1.N).val % 100 = 0 := by dsimp only; omega
    refine (congrFun (out5_B V c ⟨n + 1, hn⟩ h0) (ix1 q)).trans ?_
    refine (pay4_apply (xb0 V c ⟨n + 1, hn⟩) (xb2 V c ⟨n + 1, hn⟩) (xb3 V c ⟨n + 1, hn⟩) (xb1 V c ⟨n + 1, hn⟩) (outsAt1 V c ((⟨n + 1, hn⟩ : Fin cfg1.N).val - 1) (Nat.lt_of_le_of_lt (Nat.sub_le _ _) (⟨n + 1, hn⟩ : Fin cfg1.N).isLt)).2.1 q).trans ?_
    rw [Finset.sum_range_succ _ (n + 1)]
    have ih := acc5 c n (Nat.lt_of_succ_lt hn) q
    refine congrArg₂ (· + ·) ?_ ?_
    · exact ih
    · unfold blkSum; rw [dif_pos hn]
      exact Finset.sum_congr rfl fun p _ => by rw [dense_blk V c ⟨n + 1, hn⟩ p q]

theorem acc6 (c : Dev nD) : ∀ (n : ℕ) (hn : n < cfg1.N) (q : Fin 128),
    (outsAt1 V c n hn).2.2 (ix1 q) = ∑ t ∈ Finset.range (n + 1), blkSumSq V c t q
  | 0, hn, q => by
    have h0 : (⟨0, hn⟩ : Fin cfg1.N).val % 100 = 0 := Nat.zero_mod _
    refine (congrFun (out6_A V c ⟨0, hn⟩ h0) (ix1 q)).trans ?_
    refine (pay5_apply (xb0 V c ⟨0, hn⟩) (xb2 V c ⟨0, hn⟩) (xb3 V c ⟨0, hn⟩) (xb1 V c ⟨0, hn⟩) (k1_pay2 (F := Ideal)) q).trans ?_
    rw [pay2_apply q, zero_add, Finset.sum_range_one]
    unfold blkSumSq; rw [dif_pos hn]
    exact Finset.sum_congr rfl fun p _ => by rw [dense_blk V c ⟨0, hn⟩ p q]
  | n + 1, hn, q => by
    have hN : cfg1.N = 100 := N_1
    have h0 : ¬(⟨n + 1, hn⟩ : Fin cfg1.N).val % 100 = 0 := by dsimp only; omega
    refine (congrFun (out6_B V c ⟨n + 1, hn⟩ h0) (ix1 q)).trans ?_
    refine (pay5_apply (xb0 V c ⟨n + 1, hn⟩) (xb2 V c ⟨n + 1, hn⟩) (xb3 V c ⟨n + 1, hn⟩) (xb1 V c ⟨n + 1, hn⟩) (outsAt1 V c ((⟨n + 1, hn⟩ : Fin cfg1.N).val - 1) (Nat.lt_of_le_of_lt (Nat.sub_le _ _) (⟨n + 1, hn⟩ : Fin cfg1.N).isLt)).2.2 q).trans ?_
    rw [Finset.sum_range_succ _ (n + 1)]
    have ih := acc6 c n (Nat.lt_of_succ_lt hn) q
    refine congrArg₂ (· + ·) ?_ ?_
    · exact ih
    · unfold blkSumSq; rw [dif_pos hn]
      exact Finset.sum_congr rfl fun p _ => by rw [dense_blk V c ⟨n + 1, hn⟩ p q]

/-- A column sum, read at an index whose coordinate is `q`. -/
theorem colSum_at (y : SNx128.Idx → EReal) (h : S128.Idx) (q : Fin 128) (e : (h 0).val = q.val) :
    colSum y h = ∑ r : Fin 500000, y (ix2 r q) := by
  unfold colSum
  exact Finset.sum_congr rfl fun r _ => congrArg (fun z : Fin 128 => y (ix2 r z)) (Fin.ext e)

/-- A column sum of squares, read at an index whose coordinate is `q`. -/
theorem colSumSq_at (y : SNx128.Idx → EReal) (h : S128.Idx) (q : Fin 128) (e : (h 0).val = q.val) :
    colSumSq y h = ∑ r : Fin 500000, y (ix2 r q) * y (ix2 r q) := by
  unfold colSumSq
  exact Finset.sum_congr rfl fun r _ => congrArg (fun z : Fin 128 => y (ix2 r z) * y (ix2 r z)) (Fin.ext e)

/-- The hundred block sums add up to the sum over all rows. -/
theorem blocks_sum (f : Fin 500000 → EReal) (g : ℕ → EReal)
    (hg : ∀ (t : ℕ) (h : t < cfg1.N), g t = ∑ p : Fin 5000, f (rowOf ⟨t, h⟩ p)) :
    ∑ t ∈ Finset.range 100, g t = ∑ r : Fin 500000, f r := by
  have hN : cfg1.N = 100 := N_1
  rw [Finset.sum_range, ← Cert.BlockSum.blockSum_eq f]
  refine Finset.sum_congr rfl fun t _ => ?_
  rw [hg t.val (by have := t.isLt; omega)]

theorem mem_blk5 (t : Fin cfg1.N) (i : S128.Idx) :
    i ∈ ((cfg1.win 5).blk t).view.set ↔ ∀ a : Fin 1, win1_5.index t a * S128.size a ≤ (i a).val ∧ (i a).val < win1_5.index t a * S128.size a + S128.size a := by
  show i ∈ ((View.whole main_v46_1).slice (win1_5.rect t)).set ↔ _
  rw [View.set_slice_whole, Rect.mem_set_unit]
  exact Iff.rfl

theorem mem_blk6 (t : Fin cfg1.N) (i : S128.Idx) :
    i ∈ ((cfg1.win 6).blk t).view.set ↔ ∀ a : Fin 1, win1_6.index t a * S128.size a ≤ (i a).val ∧ (i a).val < win1_6.index t a * S128.size a + S128.size a := by
  show i ∈ ((View.whole main_v46_2).slice (win1_6.rect t)).set ↔ _
  rw [View.set_slice_whole, Rect.mem_set_unit]
  exact Iff.rfl

/-- The last point's block of an accumulator window is its whole array. -/
theorem cover5 (i : S128.Idx) : ∃ t : Fin cfg1.N, (cfg1.win 5).flush t = true ∧ i ∈ ((cfg1.win 5).blk t).view.set := by
  have hN : cfg1.N = 100 := N_1
  have hi : (i 0).val < 128 := (i 0).isLt
  let t : Fin cfg1.N := ⟨99, by omega⟩
  obtain ⟨-, -, -, -, -, -, -, -, -, e0, -⟩ := idx_facts t
  refine ⟨t, (flush1_5 t).mpr rfl, ?_⟩
  rw [mem_blk5]
  intro a
  match a with
  | ⟨0, _⟩ =>
    show win1_5.index t (0 : Fin 1) * 128 ≤ (i 0).val ∧ (i 0).val < win1_5.index t (0 : Fin 1) * 128 + 128
    rw [e0]; omega

theorem cover6 (i : S128.Idx) : ∃ t : Fin cfg1.N, (cfg1.win 6).flush t = true ∧ i ∈ ((cfg1.win 6).blk t).view.set := by
  have hN : cfg1.N = 100 := N_1
  have hi : (i 0).val < 128 := (i 0).isLt
  let t : Fin cfg1.N := ⟨99, by omega⟩
  obtain ⟨-, -, -, -, -, -, -, -, -, -, e0⟩ := idx_facts t
  refine ⟨t, (flush1_6 t).mpr rfl, ?_⟩
  rw [mem_blk6]
  intro a
  match a with
  | ⟨0, _⟩ =>
    show win1_6.index t (0 : Fin 1) * 128 ≤ (i 0).val ∧ (i 0).val < win1_6.index t (0 : Fin 1) * 128 + 128
    rw [e0]; omega

/-- What the last point writes back of accumulator window 5, for any contents `G` the running block agrees with entry by entry. -/
theorem flushed5_eq_of (c : Dev nD) (t : Fin cfg1.N) (G : S128.Idx → EReal)
    (hG : ∀ q : Fin 128, (outsAt1 V c t.val t.isLt).2.1 (ix1 q) = G (ix1 q)) :
    (dat1 V c).flushed 5 t = ((cfg1.win 5).blk t).view.read (Elt Ideal) G := by
  obtain ⟨-, -, -, -, -, -, -, -, -, e5, e6⟩ := idx_facts t
  show (cfg1.win 5).cut (grid1.coords t) ((dat1 V c).after 5 t) = _
  rw [after1_5]
  funext j
  have hj : (j 0).val < 128 := (j 0).isLt
  show _ = G (((cfg1.win 5).blk t).view.emb j)
  refine Eq.trans (b := (outsAt1 V c t.val t.isLt).2.1 (ix1 ⟨(j 0).val, hj⟩))
    (congrArg (outsAt1 V c t.val t.isLt).2.1 (funext fun a => match a with | ⟨0, _⟩ => rfl)) ?_
  rw [hG ⟨(j 0).val, hj⟩]
  refine congrArg G (funext fun a => Fin.ext ?_)
  match a with
  | ⟨0, _⟩ => show (j 0).val = win1_5.index t (0 : Fin 1) * 128 + 1 * (j 0).val; rw [e5]; omega

theorem flushed5_eq (c : Dev nD) (t : Fin cfg1.N) (hf : (cfg1.win 5).flush t = true) :
    (dat1 V c).flushed 5 t = ((cfg1.win 5).blk t).view.read (Elt Ideal) (colSum (y1 V c)) := by
  have hN : cfg1.N = 100 := N_1
  have h99 : t.val = 99 := by have := (flush1_5 t).mp hf; have := t.isLt; omega
  refine flushed5_eq_of V c t (colSum (y1 V c)) fun q => ?_
  rw [acc5 V c t.val t.isLt q, h99]
  exact (blocks_sum (fun r => y1 V c (ix2 r q)) (fun s => blkSum V c s q)
    (fun s h => by unfold blkSum; rw [dif_pos h])).trans (colSum_at (y1 V c) (ix1 q) q rfl).symm

/-- What the last point writes back of accumulator window 6, for any contents `G` the running block agrees with entry by entry. -/
theorem flushed6_eq_of (c : Dev nD) (t : Fin cfg1.N) (G : S128.Idx → EReal)
    (hG : ∀ q : Fin 128, (outsAt1 V c t.val t.isLt).2.2 (ix1 q) = G (ix1 q)) :
    (dat1 V c).flushed 6 t = ((cfg1.win 6).blk t).view.read (Elt Ideal) G := by
  obtain ⟨-, -, -, -, -, -, -, -, -, e5, e6⟩ := idx_facts t
  show (cfg1.win 6).cut (grid1.coords t) ((dat1 V c).after 6 t) = _
  rw [after1_6]
  funext j
  have hj : (j 0).val < 128 := (j 0).isLt
  show _ = G (((cfg1.win 6).blk t).view.emb j)
  refine Eq.trans (b := (outsAt1 V c t.val t.isLt).2.2 (ix1 ⟨(j 0).val, hj⟩))
    (congrArg (outsAt1 V c t.val t.isLt).2.2 (funext fun a => match a with | ⟨0, _⟩ => rfl)) ?_
  rw [hG ⟨(j 0).val, hj⟩]
  refine congrArg G (funext fun a => Fin.ext ?_)
  match a with
  | ⟨0, _⟩ => show (j 0).val = win1_6.index t (0 : Fin 1) * 128 + 1 * (j 0).val; rw [e6]; omega

theorem flushed6_eq (c : Dev nD) (t : Fin cfg1.N) (hf : (cfg1.win 6).flush t = true) :
    (dat1 V c).flushed 6 t = ((cfg1.win 6).blk t).view.read (Elt Ideal) (colSumSq (y1 V c)) := by
  have hN : cfg1.N = 100 := N_1
  have h99 : t.val = 99 := by have := (flush1_6 t).mp hf; have := t.isLt; omega
  refine flushed6_eq_of V c t (colSumSq (y1 V c)) fun q => ?_
  rw [acc6 V c t.val t.isLt q, h99]
  exact (blocks_sum (fun r => y1 V c (ix2 r q) * y1 V c (ix2 r q)) (fun s => blkSumSq V c s q)
    (fun s h => by unfold blkSumSq; rw [dif_pos h])).trans (colSumSq_at (y1 V c) (ix1 q) q rfl).symm

/-- The first accumulator ends at the column sums. -/
theorem final1_sum (c : Dev nD) : (dat1 (F := Ideal) V c).arrAt 5 cfg1.N = colSum (y1 V c) := by
  exact (dat1 V c).arrAt_eq_of_cover 5 (colSum (y1 V c)) (flushed5_eq V c) cover5

/-- The second accumulator ends at the column sums of squares. -/
theorem final1_sumsq (c : Dev nD) : (dat1 (F := Ideal) V c).arrAt 6 cfg1.N = colSumSq (y1 V c) := by
  exact (dat1 V c).arrAt_eq_of_cover 6 (colSumSq (y1 V c)) (flushed6_eq V c) cover6

end Cert.KernelIdeal.Reg1

end
-- ==== Proof.Region2.lean ====
/-
  The third kernel region, read as a value: the normalisation and the residual, row block by row block, from whatever
  mean and variance vectors the region is entered with.
-/
import proofs.«143154_j70317204570673_1_alg».proof.Proof.Gen.KernelIdeal.Frame
import proofs.«143154_j70317204570673_1_alg».proof.Proof.Spec
import proofs.«143154_j70317204570673_1_alg».proof.Proof.LibRowOps
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Reg2

open Cert.KernelIdeal Cert.KernelIdeal.Gen Cert.Spec
open Idealize.ShloMosaic Idealize.ShloMosaic.TcCoe Idealize.ShloMosaic.ValueIdx Idealize.SL.Sem
open Idealize.ShloMosaic.Pipeline (Dat Cfg Window)
open scoped BigOperators

variable (V : (c : Dev nD) → (b : Ref sig .tc) → Buf (Elt Ideal) ((c : Thread nD τ).loc b))

/-! ## A row vector spread over the rows -/

/-- A one-axis array `[b]` seen as a single row `[1, b]` and repeated down `a` rows reads, at `(p, q)`, its entry `q`. -/
theorem rowSpread_apply {α : Type} (v : (⟨1, ![128]⟩ : Shape).Idx → α)
    (h1 : (⟨1, ![128]⟩ : Shape).ShapeCasts ⟨2, ![1, 128]⟩) (h2 : (⟨2, ![1, 128]⟩ : Shape).Broadcasts ⟨2, ![5000, 128]⟩)
    (p : Fin 5000) (q : Fin 128) :
    broadcastTo ⟨2, ![5000, 128]⟩ (shapeCast ⟨2, ![1, 128]⟩ v h1) h2 (ix2 p q) = v (ix1 q) := by
  refine (broadcastTo_apply (shapeCast ⟨2, ![1, 128]⟩ v h1) h2 (ix2 p q) (ix2 (0 : Fin 1) q) fun ax => ?_).trans ?_
  · match ax with
    | ⟨0, _⟩ => rfl
    | ⟨1, _⟩ => rfl
  · refine shapeCast_apply v h1 (ix2 (0 : Fin 1) q) (ix1 q) ?_
    rw [Shape.rowMajor_val_two, Shape.rowMajor_val_one]
    show q.val = 0 * 128 + q.val
    omega

/-- The body's stored value at row `p`, column `q` of a block. -/
theorem pay_apply (v0 : Vec Ideal Cert.KernelIdeal.S128 .f32) (v5 : Vec Ideal S5000x128 .f32) (v7 v15 v19 : Vec Ideal Cert.KernelIdeal.S128 .f32)
    (v23 : Vec Ideal S5000x128 .f32) (p : Fin 5000) (q : Fin 128) :
    k2_pay1 v0 v5 v7 v15 v19 v23 (ix2 p q)
      = v23 (ix2 p q) + ((v5 (ix2 p q) - v7 (ix1 q)) * Ideal.rsqrt (v0 (ix1 q) + Ideal.ofBits .f32 0x3727C5AC#32) * v15 (ix1 q)
          + v19 (ix1 q)) := by
  unfold k2_pay1
  have e7 := rowSpread_apply (shapeCast Cert.KernelIdeal.S128 v7 shapeCasts_S128_S128) shapeCasts_S128_S1x128 broadcasts_S1x128_S5000x128 p q
  have e4 := rowSpread_apply (rsqrt (addf (shapeCast Cert.KernelIdeal.S128 v0 shapeCasts_S128_S128) (broadcast Cert.KernelIdeal.S128 (Scalar.ofBits (F := Ideal) .f32 0x3727C5AC#32)))) shapeCasts_S128_S1x128 broadcasts_S1x128_S5000x128 p q
  have e15 := rowSpread_apply v15 shapeCasts_S128_S1x128 broadcasts_S1x128_S5000x128 p q
  have e19 := rowSpread_apply v19 shapeCasts_S128_S1x128 broadcasts_S1x128_S5000x128 p q
  rw [shapeCast_self] at e7 e4
  show v23 (ix2 p q) + ((shapeCast S5000x128 v5 shapeCasts_S5000x128_S5000x128 (ix2 p q) - _) * _ * _ + _) = _
  simp only [shapeCast_self]
  rw [e7, e4, e15, e19]
  rfl

/-! ## The blocks -/

theorem zeros2 : (![0, 0] : Fin 2 → Nat) = fun _ => 0 := funext fun a => by match a with | ⟨0, _⟩ => rfl | ⟨1, _⟩ => rfl
theorem zeros1 : (![0] : Fin 1 → Nat) = fun _ => 0 := funext fun a => by match a with | ⟨0, _⟩ => rfl

/-- Where each window's block sits at grid point `t`: the two row-blocked inputs and the output at row block `t`, the four
    vectors whole. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 1) = 0 ∧ win2_3.index t (0 : Fin 1) = 0
    ∧ win2_4.index t (0 : Fin 1) = 0 ∧ win2_5.index t (0 : Fin 1) = 0
    ∧ win2_6.index t (0 : Fin 2) = t.val ∧ win2_6.index t (1 : Fin 2) = 0 :=
  (by decide +kernel : ∀ t : Fin grid2.N, _)

/-- A row-blocked input's element `(p, q)` of its block at point `t` is the array's element under the output block's
    element `(p, q)`: both blocks are row block `t`. -/
theorem read0 (c : Dev nD) (t : Fin cfg2.N) (p : Fin 5000) (q : Fin 128) :
    iblk2 V c 0 t (ix2 p q) = V c main_arg0 (((cfg2.win 6).blk t).view.emb (ix2 p q)) := by
  obtain ⟨a0, a1, b0, b1, e2, e3, e4, e5, o0, o1⟩ := idx_facts t
  show V c main_arg0 (((cfg2.win 0).blk t).view.emb (ix2 p q)) = _
  refine congrArg _ (funext fun a => Fin.ext ?_)
  match a with
  | ⟨0, _⟩ => show win2_0.index t (0 : Fin 2) * 5000 + 1 * p.val = win2_6.index t (0 : Fin 2) * 5000 + 1 * p.val; omega
  | ⟨1, _⟩ => show win2_0.index t (1 : Fin 2) * 128 + 1 * q.val = win2_6.index t (1 : Fin 2) * 128 + 1 * q.val; omega

theorem read1 (c : Dev nD) (t : Fin cfg2.N) (p : Fin 5000) (q : Fin 128) :
    iblk2 V c 1 t (ix2 p q) = V c main_v46_0 (((cfg2.win 6).blk t).view.emb (ix2 p q)) := by
  obtain ⟨a0, a1, b0, b1, e2, e3, e4, e5, o0, o1⟩ := idx_facts t
  show V c main_v46_0 (((cfg2.win 1).blk t).view.emb (ix2 p q)) = _
  refine congrArg _ (funext fun a => Fin.ext ?_)
  match a with
  | ⟨0, _⟩ => show win2_1.index t (0 : Fin 2) * 5000 + 1 * p.val = win2_6.index t (0 : Fin 2) * 5000 + 1 * p.val; omega
  | ⟨1, _⟩ => show win2_1.index t (1 : Fin 2) * 128 + 1 * q.val = win2_6.index t (1 : Fin 2) * 128 + 1 * q.val; omega

/-- A vector window's entry `q` is the array's entry at the column of the output block's element `(p, q)`. -/
theorem read2 (c : Dev nD) (t : Fin cfg2.N) (p : Fin 5000) (q : Fin 128) :
    iblk2 V c 2 t (ix1 q) = V c main_v48 (ix1 ((((cfg2.win 6).blk t).view.emb (ix2 p q)) 1)) := by
  obtain ⟨a0, a1, b0, b1, e2, e3, e4, e5, o0, o1⟩ := idx_facts t
  show V c main_v48 (((cfg2.win 2).blk t).view.emb (ix1 q)) = _
  refine congrArg _ (funext fun a => Fin.ext ?_)
  match a with
  | ⟨0, _⟩ => show win2_2.index t (0 : Fin 1) * 128 + 1 * q.val = win2_6.index t (1 : Fin 2) * 128 + 1 * q.val; omega

theorem read3 (c : Dev nD) (t : Fin cfg2.N) (p : Fin 5000) (q : Fin 128) :
    iblk2 V c 3 t (ix1 q) = V c main_v52 (ix1 ((((cfg2.win 6).blk t).view.emb (ix2 p q)) 1)) := by
  obtain ⟨a0, a1, b0, b1, e2, e3, e4, e5, o0, o1⟩ := idx_facts t
  show V c main_v52 (((cfg2.win 3).blk t).view.emb (ix1 q)) = _
  refine congrArg _ (funext fun a => Fin.ext ?_)
  match a with
  | ⟨0, _⟩ => show win2_3.index t (0 : Fin 1) * 128 + 1 * q.val = win2_6.index t (1 : Fin 2) * 128 + 1 * q.val; omega

theorem read4 (c : Dev nD) (t : Fin cfg2.N) (p : Fin 5000) (q : Fin 128) :
    iblk2 V c 4 t (ix1 q) = V c main_arg9 (ix1 ((((cfg2.win 6).blk t).view.emb (ix2 p q)) 1)) := by
  obtain ⟨a0, a1, b0, b1, e2, e3, e4, e5, o0, o1⟩ := idx_facts t
  show V c main_arg9 (((cfg2.win 4).blk t).view.emb (ix1 q)) = _
  refine congrArg _ (funext fun a => Fin.ext ?_)
  match a with
  | ⟨0, _⟩ => show win2_4.index t (0 : Fin 1) * 128 + 1 * q.val = win2_6.index t (1 : Fin 2) * 128 + 1 * q.val; omega

theorem read5 (c : Dev nD) (t : Fin cfg2.N) (p : Fin 5000) (q : Fin 128) :
    iblk2 V c 5 t (ix1 q) = V c main_arg10 (ix1 ((((cfg2.win 6).blk t).view.emb (ix2 p q)) 1)) := by
  obtain ⟨a0, a1, b0, b1, e2, e3, e4, e5, o0, o1⟩ := idx_facts t
  show V c main_arg10 (((cfg2.win 5).blk t).view.emb (ix1 q)) = _
  refine congrArg _ (funext fun a => Fin.ext ?_)
  match a with
  | ⟨0, _⟩ => show win2_5.index t (0 : Fin 1) * 128 + 1 * q.val = win2_6.index t (1 : Fin 2) * 128 + 1 * q.val; omega

/-- What grid point `t` writes back is row block `t` of the normalised array. -/
theorem flushed_eq (c : Dev nD) (t : Fin cfg2.N) :
    (dat2 (F := Ideal) V c).flushed 6 t = ((cfg2.win 6).blk t).view.read (Elt Ideal)
      (bnFinal (V c main_arg0) (V c main_v46_0) (V c main_v48) (V c main_v52) (V c main_arg9) (V c main_arg10)) := by
  show (cfg2.win 6).cut (grid2.coords t) ((dat2 V c).after 6 t) = _
  rw [after2_6]
  unfold out2_6
  rw [View.canon_unit_zero zeros2]
  simp only [View.ld_unit_zero (S := S5000x128) zeros2, View.ld_unit_zero (S := Cert.KernelIdeal.S128) zeros1]
  funext j
  obtain ⟨p, q, rfl⟩ : ∃ (p : Fin 5000) (q : Fin 128), j = ix2 p q := ⟨j 0, j 1, eq_ix2 j⟩
  show k2_pay1 (iblk2 V c 3 t) (iblk2 V c 1 t) (iblk2 V c 2 t) (iblk2 V c 4 t) (iblk2 V c 5 t) (iblk2 V c 0 t) (ix2 p q)
    = bnFinal (V c main_arg0) (V c main_v46_0) (V c main_v48) (V c main_v52) (V c main_arg9) (V c main_arg10)
        (((cfg2.win 6).blk t).view.emb (ix2 p q))
  refine (pay_apply _ _ _ _ _ _ p q).trans ?_
  rw [read0 V c t p q, read1 V c t p q, read2 V c t p q, read3 V c t p q, read4 V c t p q, read5 V c t p q]
  rfl

/-! ## From the blocks to the array -/

/-- An index of the result array is in point `t`'s block iff each coordinate is in the block's range on its axis. -/
theorem mem_blk (t : Fin cfg2.N) (i : S500000x128.Idx) :
    i ∈ ((cfg2.win 6).blk t).view.set ↔ ∀ a : Fin 2, win2_6.index t a * S5000x128.size a ≤ (i a).val
      ∧ (i a).val < win2_6.index t a * S5000x128.size a + S5000x128.size a := by
  show i ∈ ((View.whole main_v53).slice (win2_6.rect t)).set ↔ _
  rw [View.set_slice_whole, Rect.mem_set_unit]
  exact Iff.rfl

/-- Row `r` lies in the block of point `r / 5000`, and every point writes its block back. -/
theorem cover (i : S500000x128.Idx) :
    ∃ t : Fin cfg2.N, (cfg2.win 6).flush t = true ∧ i ∈ ((cfg2.win 6).blk t).view.set := by
  have hi0 : (i 0).val < 500000 := (i 0).isLt
  have hi1 : (i 1).val < 128 := (i 1).isLt
  have hN : grid2.N = 100 := N_2
  have ht : (i 0).val / 5000 < grid2.N := by rw [hN]; omega
  obtain ⟨a0, a1, b0, b1, e2, e3, e4, e5, o0, o1⟩ := idx_facts ⟨(i 0).val / 5000, ht⟩
  refine ⟨⟨(i 0).val / 5000, ht⟩, flush2_6 _, ?_⟩
  rw [mem_blk]
  intro a
  match a with
  | ⟨0, _⟩ =>
    show win2_6.index ⟨(i 0).val / 5000, ht⟩ (0 : Fin 2) * 5000 ≤ (i 0).val
      ∧ (i 0).val < win2_6.index ⟨(i 0).val / 5000, ht⟩ (0 : Fin 2) * 5000 + 5000
    rw [o0]
    show (i 0).val / 5000 * 5000 ≤ (i 0).val ∧ (i 0).val < (i 0).val / 5000 * 5000 + 5000
    omega
  | ⟨1, _⟩ =>
    show win2_6.index ⟨(i 0).val / 5000, ht⟩ (1 : Fin 2) * 128 ≤ (i 1).val
      ∧ (i 1).val < win2_6.index ⟨(i 0).val / 5000, ht⟩ (1 : Fin 2) * 128 + 128
    rw [o1]
    omega

/-- The result array of the third region after its 100 points. -/
theorem final2 (c : Dev nD) :
    (dat2 (F := Ideal) V c).arrAt 6 cfg2.N
      = bnFinal (V c main_arg0) (V c main_v46_0) (V c main_v48) (V c main_v52) (V c main_arg9) (V c main_arg10) :=
  (dat2 V c).arrAt_eq_of_cover 6 _ (fun t _ => flushed_eq V c t) cover

end Cert.KernelIdeal.Reg2

end
-- ==== Proof.RefSide.lean ====
/-
  The reference's stages, grouped: its first layer's output is `max (x0 · g1wᵀ + g1b − lam1) 0`, its second's
  `out1 · g2wᵀ + g2b − lam2`, and its result the normalisation of that by the column means and the mean squared deviations.
-/
import proofs.«143154_j70317204570673_1_alg».proof.Proof.Gen.ReferenceIdeal.Read
import proofs.«143154_j70317204570673_1_alg».proof.Proof.Spec
import proofs.«143154_j70317204570673_1_alg».proof.Proof.LibRowOps
import Idealize.ShloMosaic.Lib.Pipeline.Value
import Idealize.ShloMosaic.Lib.ValueIdx
import Idealize.ShloMosaic.Lib.ValueLayout
import Idealize.ShloMosaic.PureOps.Ideal.Laws

noncomputable section

namespace Cert.ReferenceIdeal.Side

open Cert.ReferenceIdeal Cert.ReferenceIdeal.Gen Cert.ReferenceIdeal.Read Cert.Spec
open Idealize.ShloMosaic Idealize.ShloMosaic.TcCoe Idealize.ShloMosaic.ValueIdx Idealize.SL.Sem
open scoped BigOperators

variable (x0 : SNx128.Idx → EReal) (x1 : IVec S500000 32) (x2 : S8x500000x2.Idx → EReal)
  (x3 : S128x144.Idx → EReal) (x4 : Spec.S128.Idx → EReal) (x5 : S128x144.Idx → EReal)
  (x6 : Spec.S128x128.Idx → EReal) (x7 : Spec.S128.Idx → EReal) (x8 : Spec.S128x128.Idx → EReal)
  (x9 x10 : Spec.S128.Idx → EReal)

/-! ### The composed index maps, as coordinates -/

theorem lidx15_eq (r : Fin 500000) (h : Fin 128) (k : Fin 144) : lidx_main_v15 (ix2 r h) k = ix2 r k :=
  funext fun a => Fin.ext (by match a with | ⟨0, _⟩ => rfl | ⟨1, _⟩ => rfl)
theorem ridx15_eq (r : Fin 500000) (h : Fin 128) (k : Fin 144) : ridx_main_v15 (ix2 r h) k = ix2 k h :=
  funext fun a => Fin.ext (by match a with | ⟨0, _⟩ => rfl | ⟨1, _⟩ => rfl)
theorem lidx42_eq (r : Fin 500000) (h : Fin 128) (k : Fin 128) : lidx_main_v42 (ix2 r h) k = ix2 r k :=
  funext fun a => Fin.ext (by match a with | ⟨0, _⟩ => rfl | ⟨1, _⟩ => rfl)
theorem ridx42_eq (r : Fin 500000) (h : Fin 128) (k : Fin 128) : ridx_main_v42 (ix2 r h) k = ix2 k h :=
  funext fun a => Fin.ext (by match a with | ⟨0, _⟩ => rfl | ⟨1, _⟩ => rfl)
/-- A row vector spread over the rows is read at the column alone. -/
theorem idx16_17_eq (r : Fin 500000) (h : Fin 128) : idx_main_v16 (idx_main_v17 (ix2 r h)) = ix1 h :=
  funext fun a => Fin.ext (by match a with | ⟨0, _⟩ => rfl)
theorem idx43_44_eq (r : Fin 500000) (h : Fin 128) : idx_main_v43 (idx_main_v44 (ix2 r h)) = ix1 h :=
  funext fun a => Fin.ext (by match a with | ⟨0, _⟩ => rfl)
theorem idx59_60_eq (r : Fin 500000) (h : Fin 128) : idx_main_v59 (idx_main_v60 (ix2 r h)) = ix1 h :=
  funext fun a => Fin.ext (by match a with | ⟨0, _⟩ => rfl)
theorem idx66_67_eq (r : Fin 500000) (h : Fin 128) : idx_main_v66 (idx_main_v67 (ix2 r h)) = ix1 h :=
  funext fun a => Fin.ext (by match a with | ⟨0, _⟩ => rfl)
theorem idx72_73_eq (r : Fin 500000) (h : Fin 128) : idx_main_v72 (idx_main_v73 (ix2 r h)) = ix1 h :=
  funext fun a => Fin.ext (by match a with | ⟨0, _⟩ => rfl)
theorem idx75_76_eq (r : Fin 500000) (h : Fin 128) : idx_main_v75 (idx_main_v76 (ix2 r h)) = ix1 h :=
  funext fun a => Fin.ext (by match a with | ⟨0, _⟩ => rfl)
theorem idx78_79_eq (r : Fin 500000) (h : Fin 128) : idx_main_v78 (idx_main_v79 (ix2 r h)) = ix1 h :=
  funext fun a => Fin.ext (by match a with | ⟨0, _⟩ => rfl)
/-- A column sum runs over the rows of that column. -/
theorem idx56_eq (h : Fin 128) (k : Fin 500000) : idx_main_v56 (ix1 h) k = ix2 k h :=
  funext fun a => Fin.ext (by match a with | ⟨0, _⟩ => rfl | ⟨1, _⟩ => rfl)
theorem idx63_eq (h : Fin 128) (k : Fin 500000) : idx_main_v63 (ix1 h) k = ix2 k h :=
  funext fun a => Fin.ext (by match a with | ⟨0, _⟩ => rfl | ⟨1, _⟩ => rfl)

/-- The reference's first layer (operations up to the `max`) in the layer's own terms. -/
theorem ref_out1 :
    val_main_v29 (F := Ideal) x0 x1 x2 x3 x4 x5
      = relu (lin144 (val_main_v2 (F := Ideal) x0 x2) (val_main_v14 (F := Ideal) x3) x4 (val_main_v27 (F := Ideal) x0 x1 x2 x5)) := by
  funext i
  obtain ⟨r, h, rfl⟩ : ∃ (r : Fin 500000) (h : Fin 128), i = ix2 r h := ⟨i 0, i 1, eq_ix2 i⟩
  rw [val_main_v29_apply, val_main_v28_apply, val_main_v18_apply, val_main_v15_apply, val_main_v17_apply,
    val_main_v16_apply, val_main_call0_v0_apply, val_main_call0_cst_apply]
  simp only [lidx15_eq, ridx15_eq, idx16_17_eq, Ideal.maximumf_def, Ideal.subf_def, Ideal.addf_def, Ideal.ofBits_def]
  rfl

/-- The reference's second layer in the layer's own terms. -/
theorem ref_out2 :
    val_main_v55 (F := Ideal) x0 x1 x2 x3 x4 x5 x6 x7 x8
      = lin128 (val_main_v29 (F := Ideal) x0 x1 x2 x3 x4 x5) (val_main_v41 (F := Ideal) x6) x7
          (val_main_v54 (F := Ideal) x0 x1 x2 x3 x4 x5 x8) := by
  funext i
  obtain ⟨r, h, rfl⟩ : ∃ (r : Fin 500000) (h : Fin 128), i = ix2 r h := ⟨i 0, i 1, eq_ix2 i⟩
  rw [val_main_v55_apply, val_main_v45_apply, val_main_v42_apply, val_main_v44_apply, val_main_v43_apply]
  simp only [lidx42_eq, ridx42_eq, idx43_44_eq, Ideal.subf_def, Ideal.addf_def]
  rfl

/-- The reference's column mean (the column's sum from the zero word, over the row count) is the layer's. -/
theorem ref_mean (h : Fin 128) :
    val_main_v58 (F := Ideal) x0 x1 x2 x3 x4 x5 x6 x7 x8 (ix1 h)
      = colMean (val_main_v55 (F := Ideal) x0 x1 x2 x3 x4 x5 x6 x7 x8) (ix1 h) := by
  rw [val_main_v58_apply, val_main_v56_apply, val_main_v57_apply, val_main_cst_10_apply, val_main_cst_11_apply]
  simp only [idx56_eq, Ideal.hostDivf_def, Ideal.ofBits_def, Ideal.ofBits_zero_f32, zero_add]
  rfl

/-- The reference's column variance (the mean of the squared deviations from the column mean) is the layer's. -/
theorem ref_var (h : Fin 128) :
    val_main_v65 (F := Ideal) x0 x1 x2 x3 x4 x5 x6 x7 x8 (ix1 h)
      = colVarR (val_main_v55 (F := Ideal) x0 x1 x2 x3 x4 x5 x6 x7 x8) (ix1 h) := by
  have dev : ∀ k : Fin 500000, val_main_v62 (F := Ideal) x0 x1 x2 x3 x4 x5 x6 x7 x8 (ix2 k h)
      = (val_main_v55 (F := Ideal) x0 x1 x2 x3 x4 x5 x6 x7 x8 (ix2 k h)
            - colMean (val_main_v55 (F := Ideal) x0 x1 x2 x3 x4 x5 x6 x7 x8) (ix1 h))
          * (val_main_v55 (F := Ideal) x0 x1 x2 x3 x4 x5 x6 x7 x8 (ix2 k h)
            - colMean (val_main_v55 (F := Ideal) x0 x1 x2 x3 x4 x5 x6 x7 x8) (ix1 h)) := by
    intro k
    rw [val_main_v62_apply, val_main_v61_apply, val_main_v60_apply, val_main_v59_apply, idx59_60_eq, ref_mean]
    rfl
  rw [val_main_v65_apply, val_main_v63_apply, val_main_v64_apply, val_main_cst_12_apply, val_main_cst_13_apply]
  simp only [idx63_eq, dev, Ideal.hostDivf_def, Ideal.ofBits_def, Ideal.ofBits_zero_f32, zero_add]
  rfl

/-- The reference's result: the normalisation of its second layer's output by that output's column means and mean squared
    deviations, plus the residual. -/
theorem ref_final :
    val_main_v81 (F := Ideal) x0 x1 x2 x3 x4 x5 x6 x7 x8 x9 x10
      = bnFinal x0 (val_main_v55 (F := Ideal) x0 x1 x2 x3 x4 x5 x6 x7 x8)
          (colMean (val_main_v55 (F := Ideal) x0 x1 x2 x3 x4 x5 x6 x7 x8))
          (colVarR (val_main_v55 (F := Ideal) x0 x1 x2 x3 x4 x5 x6 x7 x8)) x9 x10 := by
  funext i
  obtain ⟨r, h, rfl⟩ : ∃ (r : Fin 500000) (h : Fin 128), i = ix2 r h := ⟨i 0, i 1, eq_ix2 i⟩
  rw [val_main_v81_apply, val_main_v80_apply, val_main_v77_apply, val_main_v74_apply, val_main_v68_apply,
    val_main_v67_apply, val_main_v66_apply, val_main_v73_apply, val_main_v72_apply, val_main_v71_apply,
    val_main_v70_apply, val_main_v69_apply, val_main_cst_14_apply, val_main_v76_apply, val_main_v75_apply,
    val_main_v79_apply, val_main_v78_apply, idx66_67_eq, idx72_73_eq, idx75_76_eq, idx78_79_eq, ref_mean, ref_var]
  simp only [Ideal.addf_def, Ideal.subf_def, Ideal.mulf_def, Ideal.hostUnary_rsqrt_def, Ideal.ofBits_def]
  rfl

end Cert.ReferenceIdeal.Side

end
-- ==== Proof.Consts.lean ====
/-
  The float words the two programs spell, as the extended reals they denote: zero is in the library; here are one and the
  row count 500000.
-/
import Idealize.ShloMosaic.PureOps.Ideal

noncomputable section

namespace Cert.Consts

open Idealize.ShloMosaic

/-- `1.0` denotes the real one. -/
theorem ofBits_one : Ideal.ofBits .f32 0x3F800000#32 = ((1 : ℝ) : EReal) := by
  simp [Ideal.ofBits, Ideal.ieee, -EReal.coe_mul]; norm_num

/-- `500000.0` denotes the real 500000. -/
theorem ofBits_500000 : Ideal.ofBits .f32 0x48F42400#32 = ((500000 : ℝ) : EReal) := by
  simp [Ideal.ofBits, Ideal.ieee, -EReal.coe_mul]; norm_num

end Cert.Consts

end
-- ==== Proof.Finite.lean ====
/-
  Real inputs give a real second-layer output: every stage of the reference up to there is built from sums, products,
  differences, maxima, re-indexings, and a quotient by a count that is at least one.
-/
import proofs.«143154_j70317204570673_1_alg».proof.Proof.Gen.ReferenceIdeal.Read
import proofs.«143154_j70317204570673_1_alg».proof.Proof.Spec
import proofs.«143154_j70317204570673_1_alg».proof.Proof.LibRowOps
import proofs.«143154_j70317204570673_1_alg».proof.Proof.Consts
import Idealize.ShloMosaic.Lib.Pipeline.Value
import Idealize.ShloMosaic.Lib.ValueIdx
import Idealize.ShloMosaic.Lib.ValueLayout
import Idealize.ShloMosaic.PureOps.Ideal.Laws

noncomputable section

namespace Cert.ReferenceIdeal.Finite

open Cert.ReferenceIdeal Cert.ReferenceIdeal.Gen Cert.ReferenceIdeal.Read Cert.Spec
open Idealize.ShloMosaic Idealize.ShloMosaic.TcCoe Idealize.ShloMosaic.ValueIdx Idealize.SL.Sem
open scoped BigOperators

/-! ## One extended real that is a real number, and what keeps it so -/

/-- The extended real is (the image of) a real number. -/
def Re (x : EReal) : Prop := ∃ r : ℝ, x = (r : EReal)

theorem Re.add {a b : EReal} (ha : Re a) (hb : Re b) : Re (a + b) := by
  obtain ⟨r, rfl⟩ := ha; obtain ⟨s, rfl⟩ := hb
  exact ⟨r + s, (EReal.coe_add r s).symm⟩

theorem Re.sub {a b : EReal} (ha : Re a) (hb : Re b) : Re (a - b) := by
  obtain ⟨r, rfl⟩ := ha; obtain ⟨s, rfl⟩ := hb
  exact ⟨r - s, (EReal.coe_sub r s).symm⟩

theorem Re.mul {a b : EReal} (ha : Re a) (hb : Re b) : Re (a * b) := by
  obtain ⟨r, rfl⟩ := ha; obtain ⟨s, rfl⟩ := hb
  exact ⟨r * s, (EReal.coe_mul r s).symm⟩

/-- The larger of two reals is one of them. -/
theorem Re.max {a b : EReal} (ha : Re a) (hb : Re b) : Re (max a b) := by
  rcases le_total a b with h | h
  · rw [max_eq_right h]; exact hb
  · rw [max_eq_left h]; exact ha

/-- A finite sum of reals is real: one term at a time. -/
theorem Re.sum {ι : Type} (s : Finset ι) (f : ι → EReal) : (∀ i ∈ s, Re (f i)) → Re (∑ i ∈ s, f i) := by
  classical
  refine Finset.induction_on s (fun _ => ⟨0, by simp⟩) ?_
  intro a s ha ih h
  rw [Finset.sum_insert ha]
  exact (h a (Finset.mem_insert_self a s)).add (ih fun i hi => h i (Finset.mem_insert_of_mem hi))

/-- A real over a nonzero real is the product with the reciprocal, a real. -/
theorem Re.div {a b : EReal} (ha : Re a) (hb : Re b) (h0 : b ≠ 0) : Re (Ideal.div a b) := by
  obtain ⟨r, rfl⟩ := ha; obtain ⟨s, rfl⟩ := hb
  have hs : s ≠ 0 := fun e => h0 (by rw [e]; rfl)
  rw [Ideal.div_coe hs]
  exact ⟨r * (1 / s), (EReal.coe_mul r (1 / s)).symm⟩

/-- The float word for zero is the real zero. -/
theorem Re.zeroWord : Re (Ideal.ofBits .f32 0x00000000#32) := ⟨0, by rw [Ideal.ofBits_zero_f32]; rfl⟩

/-- The float word for one is the real one. -/
theorem Re.oneWord : Re (Ideal.ofBits .f32 0x3F800000#32) := ⟨1, Cert.Consts.ofBits_one⟩

/-- Whatever `a` is, the larger of `a` and one is at least one, so it is not zero. -/
theorem max_one_ne_zero (a : EReal) : max a ((1 : ℝ) : EReal) ≠ 0 := by
  have h1 : (0 : EReal) < ((1 : ℝ) : EReal) := by exact_mod_cast zero_lt_one
  exact ne_of_gt (lt_of_lt_of_le h1 (le_max_right _ _))

/-! ## Whole-array operations that keep an array real -/

/-- An accumulating scatter into a real array of real updates: each entry is the old entry plus a finite sum of
    updates, wherever the indices send them. -/
theorem real_scatterAdd {s si su : Shape} {w : Nat} (d : ScatterDims s si su) (x : s.Idx → EReal) (idx : IVec si w)
    (upd : su.Idx → EReal) (hx : IsReal x) (hu : IsReal upd) :
    IsReal (S := s) (Host.scatterAdd (F := Ideal) (φ := .f32) d x idx upd) := by
  intro i
  simp only [Host.scatterAdd, Ideal.hostScatterAdd_def, Ideal.hostScatterAdd]
  exact Re.add (hx i) (Re.sum _ _ fun j _ => hu j)

/-- A gather only picks entries of its operand. -/
theorem real_gather {s si t : Shape} {w : Nat} (d : GatherDims s si t) (x : s.Idx → EReal) (idx : IVec si w)
    (hx : IsReal x) : IsReal (S := t) (Host.gather d x idx) := fun j => hx _

/-! ## The reference, stage by stage -/

variable (x0 : SNx128.Idx → EReal) (x1 : IVec S500000 32) (x2 : S8x500000x2.Idx → EReal)
  (x3 : S128x144.Idx → EReal) (x4 : Spec.S128.Idx → EReal) (x5 : S128x144.Idx → EReal)
  (x6 : Spec.S128x128.Idx → EReal) (x7 : Spec.S128.Idx → EReal) (x8 : Spec.S128x128.Idx → EReal)
  (x9 x10 : Spec.S128.Idx → EReal)

/-! ### The joined input: the features beside the re-laid-out coordinates -/

theorem real_v0 (h2 : IsReal x2) : IsReal (val_main_v0 (F := Ideal) x2) := by
  intro i; rw [val_main_v0_apply]; exact h2 _

theorem real_v1 (h2 : IsReal x2) : IsReal (val_main_v1 (F := Ideal) x2) := by
  intro i; rw [val_main_v1_apply]; exact real_v0 x2 h2 _

/-- Each entry of the joined array is an entry of one of the two pieces. -/
theorem real_v2 (h0 : IsReal x0) (h2 : IsReal x2) : IsReal (val_main_v2 (F := Ideal) x0 x2) := by
  intro i
  have h1 := real_v1 x2 h2
  unfold val_main_v2
  generalize val_main_v1 (F := Ideal) x2 = t at h1 ⊢
  obtain ⟨r, k, rfl⟩ : ∃ r k, i = ix2 r k := ⟨_, _, eq_ix2 i⟩
  have e := Cert.RowOps.concatenate_cols_apply (R := 500000) (a := 128) (b := 16) (c := 144) x0 t
    concatenates_S500000x128_S500000x16_S500000x144_d1 (by norm_num) r k
  rw [e]
  split
  · exact h0 _
  · exact h1 _

/-! ### First layer: group sums, group counts, group means -/

theorem real_v3 : IsReal (val_main_v3 (F := Ideal)) := by
  intro i; rw [val_main_v3_apply, val_main_cst_apply]; exact Re.zeroWord

theorem real_v5 (h0 : IsReal x0) (h2 : IsReal x2) : IsReal (val_main_v5 (F := Ideal) x0 x1 x2) := by
  unfold val_main_v5
  exact real_scatterAdd _ _ _ _ real_v3 (real_v2 x0 x2 h0 h2)

theorem real_v6 : IsReal (val_main_v6 (F := Ideal)) := by
  intro i; rw [val_main_v6_apply, val_main_cst_0_apply]; exact Re.oneWord

theorem real_v7 : IsReal (val_main_v7 (F := Ideal)) := by
  intro i; rw [val_main_v7_apply, val_main_cst_1_apply]; exact Re.zeroWord

theorem real_v9 : IsReal (val_main_v9 (F := Ideal) x1) := by
  unfold val_main_v9
  exact real_scatterAdd _ _ _ _ real_v7 real_v6

/-- The divisor of a group: its count, or one if that is larger. -/
theorem v11_eq (i : S2048x1.Idx) :
    val_main_v11 (F := Ideal) x1 i = max (val_main_v9 (F := Ideal) x1 i) ((1 : ℝ) : EReal) := by
  rw [val_main_v11_apply, val_main_v10_apply, val_main_cst_2_apply, Ideal.maximumf_def, Ideal.ofBits_def,
    Cert.Consts.ofBits_one]

theorem real_v11 : IsReal (val_main_v11 (F := Ideal) x1) := by
  intro i; rw [v11_eq]; exact Re.max (real_v9 x1 i) ⟨1, rfl⟩

theorem v11_ne_zero (i : S2048x1.Idx) : val_main_v11 (F := Ideal) x1 i ≠ 0 := by
  rw [v11_eq]; exact max_one_ne_zero _

theorem real_v13 (h0 : IsReal x0) (h2 : IsReal x2) : IsReal (val_main_v13 (F := Ideal) x0 x1 x2) := by
  intro i
  rw [val_main_v13_apply, Ideal.hostDivf_def, val_main_v12_apply]
  exact Re.div (real_v5 x0 x1 x2 h0 h2 i) (real_v11 x1 _) (v11_ne_zero x1 _)

/-! ### First layer: the dense stage, less the gathered group term, then the maximum with zero -/

theorem real_v14 (h3 : IsReal x3) : IsReal (val_main_v14 (F := Ideal) x3) := by
  intro i; rw [val_main_v14_apply]; exact h3 _

theorem real_v15 (h0 : IsReal x0) (h2 : IsReal x2) (h3 : IsReal x3) :
    IsReal (val_main_v15 (F := Ideal) x0 x2 x3) := by
  intro i
  rw [val_main_v15_apply]
  exact Re.sum _ _ fun k _ => Re.mul (real_v2 x0 x2 h0 h2 _) (real_v14 x3 h3 _)

theorem real_v17 (h4 : IsReal x4) : IsReal (val_main_v17 (F := Ideal) x4) := by
  intro i; rw [val_main_v17_apply, val_main_v16_apply]; exact h4 _

theorem real_v18 (h0 : IsReal x0) (h2 : IsReal x2) (h3 : IsReal x3) (h4 : IsReal x4) :
    IsReal (val_main_v18 (F := Ideal) x0 x2 x3 x4) := by
  intro i
  rw [val_main_v18_apply, Ideal.addf_def]
  exact Re.add (real_v15 x0 x2 x3 h0 h2 h3 i) (real_v17 x4 h4 i)

theorem real_v19 (h5 : IsReal x5) : IsReal (val_main_v19 (F := Ideal) x5) := by
  intro i; rw [val_main_v19_apply]; exact h5 _

theorem real_v20 (h0 : IsReal x0) (h2 : IsReal x2) (h5 : IsReal x5) :
    IsReal (val_main_v20 (F := Ideal) x0 x1 x2 x5) := by
  intro i
  rw [val_main_v20_apply]
  exact Re.sum _ _ fun k _ => Re.mul (real_v13 x0 x1 x2 h0 h2 _) (real_v19 x5 h5 _)

theorem real_v27 (h0 : IsReal x0) (h2 : IsReal x2) (h5 : IsReal x5) :
    IsReal (val_main_v27 (F := Ideal) x0 x1 x2 x5) := by
  unfold val_main_v27
  exact real_gather _ _ _ (real_v20 x0 x1 x2 x5 h0 h2 h5)

theorem real_v28 (h0 : IsReal x0) (h2 : IsReal x2) (h3 : IsReal x3) (h4 : IsReal x4) (h5 : IsReal x5) :
    IsReal (val_main_v28 (F := Ideal) x0 x1 x2 x3 x4 x5) := by
  intro i
  rw [val_main_v28_apply, Ideal.subf_def]
  exact Re.sub (real_v18 x0 x2 x3 x4 h0 h2 h3 h4 i) (real_v27 x0 x1 x2 x5 h0 h2 h5 i)

theorem real_v29 (h0 : IsReal x0) (h2 : IsReal x2) (h3 : IsReal x3) (h4 : IsReal x4) (h5 : IsReal x5) :
    IsReal (val_main_v29 (F := Ideal) x0 x1 x2 x3 x4 x5) := by
  intro i
  rw [val_main_v29_apply, Ideal.maximumf_def, val_main_call0_v0_apply, val_main_call0_cst_apply]
  exact Re.max (real_v28 x0 x1 x2 x3 x4 x5 h0 h2 h3 h4 h5 i) Re.zeroWord

/-! ### Second layer: the same pattern on the first layer's output -/

theorem real_v30 : IsReal (val_main_v30 (F := Ideal)) := by
  intro i; rw [val_main_v30_apply, val_main_cst_4_apply]; exact Re.zeroWord

theorem real_v32 (h0 : IsReal x0) (h2 : IsReal x2) (h3 : IsReal x3) (h4 : IsReal x4) (h5 : IsReal x5) :
    IsReal (val_main_v32 (F := Ideal) x0 x1 x2 x3 x4 x5) := by
  unfold val_main_v32
  exact real_scatterAdd _ _ _ _ real_v30 (real_v29 x0 x1 x2 x3 x4 x5 h0 h2 h3 h4 h5)

theorem real_v33 : IsReal (val_main_v33 (F := Ideal)) := by
  intro i; rw [val_main_v33_apply, val_main_cst_5_apply]; exact Re.oneWord

theorem real_v34 : IsReal (val_main_v34 (F := Ideal)) := by
  intro i; rw [val_main_v34_apply, val_main_cst_6_apply]; exact Re.zeroWord

theorem real_v36 : IsReal (val_main_v36 (F := Ideal) x1) := by
  unfold val_main_v36
  exact real_scatterAdd _ _ _ _ real_v34 real_v33

/-- Again the divisor of a group is its count, or one if that is larger. -/
theorem v38_eq (i : S2048x1.Idx) :
    val_main_v38 (F := Ideal) x1 i = max (val_main_v36 (F := Ideal) x1 i) ((1 : ℝ) : EReal) := by
  rw [val_main_v38_apply, val_main_v37_apply, val_main_cst_7_apply, Ideal.maximumf_def, Ideal.ofBits_def,
    Cert.Consts.ofBits_one]

theorem real_v38 : IsReal (val_main_v38 (F := Ideal) x1) := by
  intro i; rw [v38_eq]; exact Re.max (real_v36 x1 i) ⟨1, rfl⟩

theorem v38_ne_zero (i : S2048x1.Idx) : val_main_v38 (F := Ideal) x1 i ≠ 0 := by
  rw [v38_eq]; exact max_one_ne_zero _

theorem real_v40 (h0 : IsReal x0) (h2 : IsReal x2) (h3 : IsReal x3) (h4 : IsReal x4) (h5 : IsReal x5) :
    IsReal (val_main_v40 (F := Ideal) x0 x1 x2 x3 x4 x5) := by
  intro i
  rw [val_main_v40_apply, Ideal.hostDivf_def, val_main_v39_apply]
  exact Re.div (real_v32 x0 x1 x2 x3 x4 x5 h0 h2 h3 h4 h5 i) (real_v38 x1 _) (v38_ne_zero x1 _)

theorem real_v41 (h6 : IsReal x6) : IsReal (val_main_v41 (F := Ideal) x6) := by
  intro i; rw [val_main_v41_apply]; exact h6 _

theorem real_v42 (h0 : IsReal x0) (h2 : IsReal x2) (h3 : IsReal x3) (h4 : IsReal x4) (h5 : IsReal x5)
    (h6 : IsReal x6) : IsReal (val_main_v42 (F := Ideal) x0 x1 x2 x3 x4 x5 x6) := by
  intro i
  rw [val_main_v42_apply]
  exact Re.sum _ _ fun k _ => Re.mul (real_v29 x0 x1 x2 x3 x4 x5 h0 h2 h3 h4 h5 _) (real_v41 x6 h6 _)

theorem real_v44 (h7 : IsReal x7) : IsReal (val_main_v44 (F := Ideal) x7) := by
  intro i; rw [val_main_v44_apply, val_main_v43_apply]; exact h7 _

theorem real_v45 (h0 : IsReal x0) (h2 : IsReal x2) (h3 : IsReal x3) (h4 : IsReal x4) (h5 : IsReal x5)
    (h6 : IsReal x6) (h7 : IsReal x7) : IsReal (val_main_v45 (F := Ideal) x0 x1 x2 x3 x4 x5 x6 x7) := by
  intro i
  rw [val_main_v45_apply, Ideal.addf_def]
  exact Re.add (real_v42 x0 x1 x2 x3 x4 x5 x6 h0 h2 h3 h4 h5 h6 i) (real_v44 x7 h7 i)

theorem real_v46 (h8 : IsReal x8) : IsReal (val_main_v46 (F := Ideal) x8) := by
  intro i; rw [val_main_v46_apply]; exact h8 _

theorem real_v47 (h0 : IsReal x0) (h2 : IsReal x2) (h3 : IsReal x3) (h4 : IsReal x4) (h5 : IsReal x5)
    (h8 : IsReal x8) : IsReal (val_main_v47 (F := Ideal) x0 x1 x2 x3 x4 x5 x8) := by
  intro i
  rw [val_main_v47_apply]
  exact Re.sum _ _ fun k _ => Re.mul (real_v40 x0 x1 x2 x3 x4 x5 h0 h2 h3 h4 h5 _) (real_v46 x8 h8 _)

theorem real_v54 (h0 : IsReal x0) (h2 : IsReal x2) (h3 : IsReal x3) (h4 : IsReal x4) (h5 : IsReal x5)
    (h8 : IsReal x8) : IsReal (val_main_v54 (F := Ideal) x0 x1 x2 x3 x4 x5 x8) := by
  unfold val_main_v54
  exact real_gather _ _ _ (real_v47 x0 x1 x2 x3 x4 x5 x8 h0 h2 h3 h4 h5 h8)

/-- With every float input real, whatever the group indices are, the second layer's output is real everywhere. -/
theorem out2_real (h0 : IsReal x0) (h2 : IsReal x2) (h3 : IsReal x3) (h4 : IsReal x4) (h5 : IsReal x5)
    (h6 : IsReal x6) (h7 : IsReal x7) (h8 : IsReal x8) :
    IsReal (val_main_v55 (F := Ideal) x0 x1 x2 x3 x4 x5 x6 x7 x8) := by
  intro i
  rw [val_main_v55_apply, Ideal.subf_def]
  exact Re.sub (real_v45 x0 x1 x2 x3 x4 x5 x6 x7 h0 h2 h3 h4 h5 h6 h7 i)
    (real_v54 x0 x1 x2 x3 x4 x5 x8 h0 h2 h3 h4 h5 h8 i)

end Cert.ReferenceIdeal.Finite

end
-- ==== Proof.Stats.lean ====
/-
  The two ways to a column's variance agree on real columns: with μ = (Σ y) / n,
  (Σ (y − μ)²) / n = (Σ y²) / n − μ², here at n = 500000 and over the extended reals, where the identity needs every entry real.
-/
import proofs.«143154_j70317204570673_1_alg».proof.Proof.Spec
import proofs.«143154_j70317204570673_1_alg».proof.Proof.Consts
import Idealize.ShloMosaic.PureOps.Ideal.Laws

noncomputable section

namespace Cert.Stats

open Cert.Spec Idealize.ShloMosaic Idealize.ShloMosaic.ValueIdx
open scoped BigOperators

/-- A finite sum of reals, each seen as an extended real, is the real sum seen as an extended real. -/
theorem coe_sum {ι : Type*} (s : Finset ι) (f : ι → ℝ) :
    (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- Over the reals, with μ the mean of n numbers: the mean of the squared deviations from μ is the mean of the
squares less μ². -/
theorem real_var {n : ℕ} (hn : n ≠ 0) (f : Fin n → ℝ) :
    (∑ r, (f r - (∑ r, f r) * (1 / (n : ℝ))) * (f r - (∑ r, f r) * (1 / (n : ℝ)))) * (1 / (n : ℝ))
      = (∑ r, f r * f r) * (1 / (n : ℝ)) - ((∑ r, f r) * (1 / (n : ℝ))) * ((∑ r, f r) * (1 / (n : ℝ))) := by
  have hn' : (n : ℝ) ≠ 0 := by exact_mod_cast hn
  generalize hS : (∑ r, f r) = S
  generalize hμ : S * (1 / (n : ℝ)) = μ
  -- expand each squared deviation and sum term by term; the constant μ² is counted n times
  have h1 : (∑ r, (f r - μ) * (f r - μ)) = (∑ r, f r * f r) - 2 * μ * S + n * (μ * μ) := by
    have h2 : ∀ r, (f r - μ) * (f r - μ) = f r * f r - 2 * μ * f r + μ * μ := fun r => by ring
    simp only [h2]
    rw [Finset.sum_add_distrib, Finset.sum_sub_distrib, ← Finset.mul_sum, hS, Finset.sum_const, Finset.card_univ,
      Fintype.card_fin, nsmul_eq_mul]
  rw [h1, ← hμ]
  field_simp
  ring

/-- On an array whose entries are all real the kernel's variance is the reference's. -/
theorem colVar_eq (y : SNx128.Idx → EReal) (hy : IsReal y) : colVarK y = colVarR y := by
  funext h
  choose f hf using fun r : Fin 500000 => hy (ix2 r (h 0))
  -- dividing by the row count is multiplying by the real 1/500000
  have hdiv : ∀ x : EReal, Ideal.div x nWord = x * (((1 / 500000 : ℝ)) : EReal) := fun x => by
    rw [show nWord = ((500000 : ℝ) : EReal) from Cert.Consts.ofBits_500000]
    exact Ideal.div_coe (by norm_num) x
  simp only [colVarK, colVarR, colMean, colSum, colSumSq, hdiv, hf]
  -- both sides are now built from real numbers only: move the embedding of the reals to the outside
  simp only [coe_sum, ← EReal.coe_mul, ← EReal.coe_sub]
  rw [EReal.coe_eq_coe_iff]
  have key := real_var (n := 500000) (by norm_num) f
  push_cast at key
  exact key.symm

end Cert.Stats

end
-- ==== Proof.Bridge.lean ====
/-
  The kernel program's result is the reference's. Region by region: region 0 leaves the reference's first layer
  (`max (x0 · g1wᵀ + g1b − lam1) 0`, the host arithmetic before it being the reference's own); region 1 leaves the second layer
  `y` together with the column sums of `y` and `y²`; the host turns the sums into the column mean and the variance
  "mean of squares less squared mean"; region 2 normalises. The reference takes the variance as the mean squared
  deviation, which is the same number once every entry of `y` is real, and that follows from the real inputs.
-/
import proofs.«143154_j70317204570673_1_alg».proof.Proof.KRun
import proofs.«143154_j70317204570673_1_alg».proof.Proof.Glue
import proofs.«143154_j70317204570673_1_alg».proof.Proof.Region0
import proofs.«143154_j70317204570673_1_alg».proof.Proof.Region1
import proofs.«143154_j70317204570673_1_alg».proof.Proof.Region2
import proofs.«143154_j70317204570673_1_alg».proof.Proof.RefSide
import proofs.«143154_j70317204570673_1_alg».proof.Proof.Finite
import proofs.«143154_j70317204570673_1_alg».proof.Proof.Stats

set_option maxRecDepth 16384

noncomputable section

namespace Cert.Bridge

open Cert.KernelIdeal Cert.KernelIdeal.Gen Cert.KernelIdeal.Glue Cert.Spec
open Idealize.ShloMosaic Idealize.ShloMosaic.TcCoe Idealize.SL.Sem

variable (m : (ℓ : Loc nD τ sig) → Buf (Elt Ideal) ℓ) (ρ : Dev nD → PrngReg)

/-- Region 0 leaves the reference's first layer. -/
theorem out1_eq (c : Dev nD) :
    (dat0 (F := Ideal) (V1 m ρ) c).arrAt 4 cfg0.N = (Cert.ReferenceIdeal.Read.val_main_v29 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) := by
  rw [Cert.KernelIdeal.Reg0.final0 (V1 m ρ) c, V1_v2, V1_v22, V1_v23, V1_arg4]
  exact (Cert.ReferenceIdeal.Side.ref_out1 _ _ _ _ _ _).symm

/-- Region 1's dense result is the reference's second layer. -/
theorem y1_eq (c : Dev nD) :
    Cert.KernelIdeal.Reg1.y1 (V3 m ρ) c = (Cert.ReferenceIdeal.Read.val_main_v55 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) := by
  have h24 : W2 m ρ c (Proc.devRef .tc main_v24) = (Cert.ReferenceIdeal.Read.val_main_v29 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) :=
    (W2_arr m ρ c 4).trans (out1_eq m ρ c)
  show lin128 (V3 m ρ c main_v24) (V3 m ρ c main_v45) (V3 m ρ c main_arg7) (V3 m ρ c main_v44) = _
  rw [V3_v24, out1_eq, V3_v45, V3_arg7, V3_v44 m ρ c h24]
  exact (Cert.ReferenceIdeal.Side.ref_out2 _ _ _ _ _ _ _ _ _).symm

/-- The whole kernel program's result buffer, under real inputs, is the reference's result term. -/
theorem result_eq (c : Dev nD)
    (h0 : IsReal (m ((c : Thread nD τ).loc main_arg0))) (h2 : IsReal (m ((c : Thread nD τ).loc main_arg2))) (h3 : IsReal (m ((c : Thread nD τ).loc main_arg3))) (h4 : IsReal (m ((c : Thread nD τ).loc main_arg4)))
    (h5 : IsReal (m ((c : Thread nD τ).loc main_arg5))) (h6 : IsReal (m ((c : Thread nD τ).loc main_arg6))) (h7 : IsReal (m ((c : Thread nD τ).loc main_arg7))) (h8 : IsReal (m ((c : Thread nD τ).loc main_arg8))) :
    W6 m ρ c (Proc.devRef .tc main_v53)
      = Cert.ReferenceIdeal.Read.val_main_v81 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  have e4 : V5 m ρ c main_v46_0 = (Cert.ReferenceIdeal.Read.val_main_v55 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) :=
    (V5_v46_0 m ρ c).trans ((Cert.KernelIdeal.Reg1.final1_out (V3 m ρ) c).trans (y1_eq m ρ c))
  have e5 : W4 m ρ c (Proc.devRef .tc main_v46_1) = colSum (Cert.ReferenceIdeal.Read.val_main_v55 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) :=
    (W4_arr m ρ c 5).trans ((Cert.KernelIdeal.Reg1.final1_sum (V3 m ρ) c).trans (congrArg colSum (y1_eq m ρ c)))
  have e6 : W4 m ρ c (Proc.devRef .tc main_v46_2) = colSumSq (Cert.ReferenceIdeal.Read.val_main_v55 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) :=
    (W4_arr m ρ c 6).trans ((Cert.KernelIdeal.Reg1.final1_sumsq (V3 m ρ) c).trans (congrArg colSumSq (y1_eq m ρ c)))
  have hreal : IsReal (Cert.ReferenceIdeal.Read.val_main_v55 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) :=
    Cert.ReferenceIdeal.Finite.out2_real _ _ _ _ _ _ _ _ _ h0 h2 h3 h4 h5 h6 h7 h8
  rw [W6_arr m ρ c 6, Cert.KernelIdeal.Reg2.final2 (V5 m ρ) c, V5_arg0, V5_arg9, V5_arg10, e4,
    V5_v48 m ρ c _ e5, V5_v52 m ρ c _ e5 e6, Cert.Stats.colVar_eq _ hreal]
  exact (Cert.ReferenceIdeal.Side.ref_final _ _ _ _ _ _ _ _ _ _ _).symm

end Cert.Bridge

end
-- ==== Proof.PreReal.lean ====
/-
  The precondition read: each float argument's entries lie strictly between the infinities, so each is a real number.
-/
import proofs.«143154_j70317204570673_1_alg».proof.Pre_finite_inputs
import proofs.«143154_j70317204570673_1_alg».proof.Proof.Gen.Pre_finite_inputs
import proofs.«143154_j70317204570673_1_alg».proof.Proof.Spec
import Idealize.ShloMosaic.Lib.ReduceAll
import Idealize.ShloMosaic.PureOps.Ideal.Laws
import Idealize.ShloMosaic.Lib.ValueIdx

noncomputable section

namespace Cert.PreReal

open Cert.Spec Idealize.ShloMosaic Idealize.ShloMosaic.ValueIdx

variable [Cert.Pre_finite_inputs.Facts]

/-- The shape of a single number has one index only. -/
instance : Subsingleton Cert.Pre_finite_inputs.S_.Idx := ⟨fun a b => funext fun d => d.elim0⟩

/-- The float word 0x7F800000 denotes +∞. -/
theorem ofBits_inf : Ideal.ofBits .f32 0x7F800000#32 = (⊤ : EReal) := by
  simp [Ideal.ofBits, Ideal.ieee]

/-- A truth value written as a one-bit word is the word 1 exactly when it is true. -/
theorem ofBool_eq_one {b : Bool} : BitVec.ofBool b = 1#1 ↔ b = true := by cases b <;> decide

/-- An extended real whose absolute value max x (−x) lies strictly below +∞ is a real number: at either infinity
that absolute value is +∞ itself. -/
theorem real_of_abs_lt_top (x : EReal) (h : max x (-x) < ⊤) : ∃ r : ℝ, x = (r : EReal) := by
  induction x using EReal.rec with
  | bot => simp at h
  | coe r => exact ⟨r, rfl⟩
  | top => simp at h

/-- One conjunct of the predicate, for an array of any shape: if "every |x| is below +∞", folded by "and" into a
single bit, is 1, then every entry of x is a real number. -/
theorem isReal_of_all {S : Shape} {axes : List (Fin S.rank)} (x : S.Idx → EReal)
    (dims : Fin Cert.Pre_finite_inputs.S_.rank → Fin S.rank)
    (hb : Cert.Pre_finite_inputs.S_.BroadcastsInDim S dims) (hr : S.ReducesTo axes Cert.Pre_finite_inputs.S_)
    (hu : 0 < Cert.Pre_finite_inputs.S_.numel) (j : Cert.Pre_finite_inputs.S_.Idx)
    (e : Host.reduce IntOp.andi
          (cmpf .olt (Host.absf (F := Ideal) (φ := .f32) x)
            (broadcastInDim S dims hb (constant (F := Ideal) Cert.Pre_finite_inputs.S_ .f32 0x7F800000#32)))
          (constantI Cert.Pre_finite_inputs.S_ 1 1#1) hr hu j = 1#1) : IsReal x := by
  intro i
  -- the fold is 1 only if the compared bit is 1 at every index
  have hi := Host.reduce_andi_all _ _ hr hu j e i
  have hc : Ideal.cmp .olt (max (x i) (-(x i))) (Ideal.ofBits .f32 0x7F800000#32) = 1#1 := hi
  rw [ofBits_inf] at hc
  -- an ordered "less than" compare is the one-bit word of the order's own decision
  have hd : BitVec.ofBool (decide (max (x i) (-(x i)) < (⊤ : EReal))) = 1#1 := hc
  have hlt : max (x i) (-(x i)) < (⊤ : EReal) := of_decide_eq_true (ofBool_eq_one.mp hd)
  exact real_of_abs_lt_top _ hlt

/-- Where the finiteness predicate holds, every float argument is real everywhere. -/
theorem args_real (a0 : Cert.Pre_finite_inputs.S500000x128.Idx → EReal) (a1 : IVec Cert.Pre_finite_inputs.S500000 32)
    (a2 : Cert.Pre_finite_inputs.S8x500000x2.Idx → EReal) (a3 : Cert.Pre_finite_inputs.S128x144.Idx → EReal)
    (a4 : Cert.Pre_finite_inputs.S128.Idx → EReal) (a5 : Cert.Pre_finite_inputs.S128x144.Idx → EReal)
    (a6 : Cert.Pre_finite_inputs.S128x128.Idx → EReal) (a7 : Cert.Pre_finite_inputs.S128.Idx → EReal)
    (a8 : Cert.Pre_finite_inputs.S128x128.Idx → EReal) (a9 a10 : Cert.Pre_finite_inputs.S128.Idx → EReal)
    (h : Cert.Pre_finite_inputs.fn (F := Ideal) a0 a1 a2 a3 a4 a5 a6 a7 a8 a9 a10 = fun _ => 1#1) :
    IsReal a0 ∧ IsReal a2 ∧ IsReal a3 ∧ IsReal a4 ∧ IsReal a5 ∧ IsReal a6 ∧ IsReal a7 ∧ IsReal a8 ∧ IsReal a9 ∧ IsReal a10 := by
  have h0 := congrFun h ix0
  -- the predicate is a chain of ten "and"s, one conjunct per float argument
  dsimp only [Cert.Pre_finite_inputs.fn, Cert.Pre_finite_inputs.fn_part1, Cert.Pre_finite_inputs.fn_part2, andi] at h0
  simp only [IntOp.andi_eq_one] at h0
  obtain ⟨⟨⟨⟨⟨⟨⟨⟨⟨e0, e2⟩, e3⟩, e4⟩, e5⟩, e6⟩, e7⟩, e8⟩, e9⟩, e10⟩ := h0
  exact ⟨isReal_of_all a0 _ _ _ _ _ e0, isReal_of_all a2 _ _ _ _ _ e2, isReal_of_all a3 _ _ _ _ _ e3,
    isReal_of_all a4 _ _ _ _ _ e4, isReal_of_all a5 _ _ _ _ _ e5, isReal_of_all a6 _ _ _ _ _ e6,
    isReal_of_all a7 _ _ _ _ _ e7, isReal_of_all a8 _ _ _ _ _ e8, isReal_of_all a9 _ _ _ _ _ e9,
    isReal_of_all a10 _ _ _ _ _ e10⟩

end Cert.PreReal

end
-- ==== Proof.lean ====
/-
  A set layer over 2048 groups of 500000 rows with 128 features, kernel against reference, over the extended reals.

  Both programs join `x` with the re-laid `pers0` into rows of 144 features, and apply twice the stage
  `row ↦ row · gᵀ + b − (mean of the row's group) · lᵀ` (the group means by a scatter-add of rows and of ones, a division
  by `max count 1`, a product with `lᵀ` and a gather back to the rows), with `max · 0` after the first stage; then a batch
  normalisation `x + ((y − μ) · rsqrt (σ² + ε) · γ + β)` per feature over all rows. The kernel program runs the dense part of
  each stage and the normalisation as three row-blocked kernels (100 blocks of 5000 rows) and everything else on the
  host, exactly as the reference spells it; its second kernel also adds up, block after block, the column sums of `y`
  and of `y²`, from which the host forms μ = Σy / n and σ² = Σy² / n − μ². The reference forms σ² = Σ (y − μ)² / n.

  At the extended reals a change of float format is the identity and a matrix product into a zero accumulator is the
  sum of products, so region by region the kernel's arrays are the reference's stages; the one algebraic step is
  Σ (y − μ)² / n = Σy² / n − μ², which holds when every entry of `y` is a real number. That is where the precondition
  enters: real inputs give a real `y`, since the stages are sums, products, differences, maxima, re-indexings, and a
  quotient by a count that is at least one.
-/
import proofs.«143154_j70317204570673_1_alg».proof.Defs
import proofs.«143154_j70317204570673_1_alg».proof.Proof.Gen.Kernel
import proofs.«143154_j70317204570673_1_alg».proof.Proof.Gen.Kernel.Frame
import proofs.«143154_j70317204570673_1_alg».proof.Proof.Gen.KernelIdeal
import proofs.«143154_j70317204570673_1_alg».proof.Proof.Gen.KernelIdeal.Frame
import proofs.«143154_j70317204570673_1_alg».proof.Proof.Gen.ReferenceIdeal
import proofs.«143154_j70317204570673_1_alg».proof.Proof.Gen.ReferenceIdeal.Run
import proofs.«143154_j70317204570673_1_alg».proof.Proof.Gen.ReferenceIdeal.Read
import proofs.«143154_j70317204570673_1_alg».proof.Proof.Gen.Pre_finite_inputs
import proofs.«143154_j70317204570673_1_alg».proof.Proof.KRun
import proofs.«143154_j70317204570673_1_alg».proof.Proof.Bridge
import proofs.«143154_j70317204570673_1_alg».proof.Proof.PreReal
import Idealize.ShloMosaic.Adequacy
import Idealize.ShloMosaic.Init

noncomputable section

namespace Cert.Proof

open Idealize.ShloMosaic Idealize.ShloMosaic.TcCoe Idealize.SL.Sem Cert.Spec

/-- The word-level kernel program runs, and leaves its arguments as they were. -/
theorem frame_k : Cert.frame_Kernel := fun m ρ _ => Cert.Kernel.Gen.frame m ρ

/-- So does the idealized kernel program. -/
theorem frame_ki : Cert.frame_KernelIdeal := fun m ρ _ => Cert.KernelIdeal.Gen.frame m ρ

/-- The reference is host operations only: its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with the reference's result term of the (shared) arguments: the kernel's by the region-by-region
    reading and the variance identity on real columns, the reference's by its own run. -/
theorem algebraic : Cert.algebraic_KernelIdeal_ReferenceIdeal := by
  intro m ρ m' ρ' hpre hagree
  refine ⟨fun c => Cert.ReferenceIdeal.Read.val_main_v81 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · refine (θ_run Cert.KernelIdeal.defs _ _).mono (fun r h c => ⟨(h c).1.trans ?_, (h c).2⟩)
      (Cert.KernelIdeal.Run.run_main (F := Ideal) m ρ)
    obtain ⟨h0, h2, h3, h4, h5, h6, h7, h8, -, -⟩ := Cert.PreReal.args_real _ _ _ _ _ _ _ _ _ _ _ (hpre c)
    exact Cert.Bridge.result_eq m ρ c h0 h2 h3 h4 h5 h6 h7 h8
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6, e7, e8, e9, e10⟩ := hagree c
    rw [Cert.ReferenceIdeal.Read.val_main_v81_eq, e0, e1, e2, e3, e4, e5, e6, e7, e8, e9, e10]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
